-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072 : Shape := ⟨1, ![131072]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .sge main_arg1 main_v16
  let main_c_6 : IVec S_ 32 := constantI S_ 32 1024#32
  let main_v18 : IVec S131072 32 := broadcastInDim S131072 ![] bcast_S_S131072 main_c_6
  let main_v19 : IVec S131072 1 := cmpi .slt main_arg1 main_v18
  let main_v20 : IVec S131072 1 := andi main_v17 main_v19
  let main_v21 : IVec S131072 1 := ori main_v15 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v13 main_v22
  main_v23

def fn {F : FTy → Type} [FloatOps F] (main_arg0 : FVec F S131072x1024 .f32) (main_arg1 : IVec S131072 32) (main_arg2 : FVec F S131072 .f32) (main_arg3 : FVec F S131072 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_c_4 : IVec S_ 32 := constantI S_ 32 4294967196#32
  let main_v14 : IVec S131072 32 := broadcastInDim S131072 ![] bcast_S_S131072 main_c_4
  let main_v15 : IVec S131072 1 := cmpi .eq main_arg1 main_v14
  let main_c_5 : IVec S_ 32 := constantI S_ 32 0#32
  fn_part1 (F := F) main_arg1 main_v13 main_v15 main_c_5
-- ==== Kernel.lean ====
abbrev S131072x1024 : Shape := ⟨2, ![131072, 1024]⟩
abbrev S131072 : Shape := ⟨1, ![131072]⟩
abbrev S131072x1 : Shape := ⟨2, ![131072, 1]⟩
abbrev S2x8x128 : Shape := ⟨3, ![2, 8, 128]⟩
abbrev S1024x1024 : Shape := ⟨2, ![1024, 1024]⟩
abbrev S1024x1 : Shape := ⟨2, ![1024, 1]⟩
abbrev S1x8x128 : Shape := ⟨3, ![1, 8, 128]⟩
abbrev S1024 : Shape := ⟨1, ![1024]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S131072, .f32⟩
  | .hbm, ⟨3, _⟩ => ⟨S131072, .f32⟩
  | .hbm, ⟨4, _⟩ => ⟨S131072x1, .i32⟩
  | .hbm, ⟨5, _⟩ => ⟨S131072x1, .f32⟩
  | .hbm, ⟨6, _⟩ => ⟨S131072x1, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S131072, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x8x128, .f32⟩
  | .local _ .vmem, ⟨9, _⟩ => ⟨S1x8x128, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S131072_S131072x1 : S131072.ShapeCasts S131072x1
  inb_S1x8x128_S1x8x128_0_0_0 : ∀ a, (![0, 0, 0] : Fin 3 → Nat) a + S1x8x128.size a ≤ S1x8x128.size a
  h_S1x8x128 : 0 < S1x8x128.numel
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  iota_S1024x1024_d1_w32 : S1024x1024.Iotas .tc 32 [1]
  natLt_1_32 : 1 < 32
  reduces_S1024x1_S1 : S1024x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  bcast_S_S131072 : S_.BroadcastsInDim S131072 (![] : Fin 0 → Fin S131072.rank)
  reducesTo_S131072_S_d0 : S131072.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S131072x1.size a
  hwx0_2 : ∀ i : grid0.Coords, EltTy.bits .f32 = 32 ∨ (Rect.block (s := S131072x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S131072x1.size a
  hwx0_3 : ∀ i : grid0.Coords, EltTy.bits .f32 = 32 ∨ (Rect.block (s := S131072x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072 : Shape := ⟨1, ![131072]⟩
abbrev S_ : Shape := ⟨0, ![]⟩
abbrev S131072x1 : Shape := ⟨2, ![131072, 1]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S131072, .f32⟩
  | .hbm, ⟨3, _⟩ => ⟨S131072, .f32⟩
  | .hbm, ⟨4, _⟩ => ⟨S_, .f32⟩
  | .hbm, ⟨5, _⟩ => ⟨S131072, .f32⟩
  | .hbm, ⟨6, _⟩ => ⟨S_, .f32⟩
  | .hbm, ⟨7, _⟩ => ⟨S131072, .f32⟩
  | .hbm, ⟨8, _⟩ => ⟨S131072, .f32⟩
  | .hbm, ⟨9, _⟩ => ⟨S131072x1, .f32⟩
  | .hbm, ⟨10, _⟩ => ⟨S131072x1024, .f32⟩
  | .hbm, ⟨11, _⟩ => ⟨S131072x1024, .f32⟩
  | .hbm, ⟨12, _⟩ => ⟨S131072x1024, .f32⟩
  | .hbm, ⟨13, _⟩ => ⟨S_, .f32⟩
  | .hbm, ⟨14, _⟩ => ⟨S131072, .f32⟩
  | .hbm, ⟨15, _⟩ => ⟨S131072x1, .f32⟩
  | .hbm, ⟨16, _⟩ => ⟨S131072x1, .f32⟩
  | .hbm, ⟨17, _⟩ => ⟨S131072x1024, .f32⟩
  | .hbm, ⟨18, _⟩ => ⟨S131072x1024, .f32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S_, .i32⟩
  | .hbm, ⟨28, _⟩ => ⟨S131072x1, .i32⟩
  | .hbm, ⟨29, _⟩ => ⟨S131072x1, .i1⟩
  | .hbm, ⟨30, _⟩ => ⟨S_, .i32⟩
  | .hbm, ⟨31, _⟩ => ⟨S131072x1, .i32⟩
  | .hbm, ⟨32, _⟩ => ⟨S131072x1, .i32⟩
  | .hbm, ⟨33, _⟩ => ⟨S131072x1, .i32⟩
  | .hbm, ⟨34, _⟩ => ⟨S131072x1x1, .i32⟩
  | .hbm, ⟨35, _⟩ => ⟨S1, .i32⟩
  | .hbm, ⟨36, _⟩ => ⟨S_, .i32⟩
  | .hbm, ⟨37, _⟩ => ⟨S131072x1x1, .i32⟩
  | .hbm, ⟨38, _⟩ => ⟨S131072x1x1, .i1⟩
  | .hbm, ⟨39, _⟩ => ⟨S1x1x1, .i32⟩
  | .hbm, ⟨40, _⟩ => ⟨S131072x1x1, .i32⟩
  | .hbm, ⟨41, _⟩ => ⟨S131072x1x1, .i1⟩
  | .hbm, ⟨42, _⟩ => ⟨S131072x1x1, .i1⟩
  | .hbm, ⟨43, _⟩ => ⟨S_, .i1⟩
  | .hbm, ⟨44, _⟩ => ⟨S131072x1, .i1⟩
  | .hbm, ⟨45, _⟩ => ⟨S131072x1, .f32⟩
  | .hbm, ⟨46, _⟩ => ⟨S_, .f32⟩
  | .hbm, ⟨47, _⟩ => ⟨S131072x1, .f32⟩
  | .hbm, ⟨48, _⟩ => ⟨S131072x1, .f32⟩
  | .hbm, ⟨49, _⟩ => ⟨S131072, .f32⟩
  | .hbm, ⟨50, _⟩ => ⟨S131072, .f32⟩
  | .hbm, ⟨51, _⟩ => ⟨S131072, .f32⟩
  | .hbm, ⟨52, _⟩ => ⟨S_, .f32⟩
  | .hbm, ⟨53, _⟩ => ⟨S131072, .f32⟩
  | .hbm, ⟨54, _⟩ => ⟨S131072, .f32⟩
  | .hbm, ⟨55, _⟩ => ⟨S_, .f32⟩
  | .hbm, ⟨56, _⟩ => ⟨S131072, .f32⟩
  | .hbm, ⟨57, _⟩ => ⟨S131072, .f32⟩
  | .hbm, ⟨58, _⟩ => ⟨S131072, .f32⟩
  | .hbm, ⟨59, _⟩ => ⟨S131072, .f32⟩
  | .hbm, ⟨60, _⟩ => ⟨S131072, .f32⟩
  | .hbm, ⟨61, _⟩ => ⟨S_, .i32⟩
  | .hbm, ⟨62, _⟩ => ⟨S131072, .i32⟩
  | .hbm, ⟨63, _⟩ => ⟨S131072, .i1⟩
  | .hbm, ⟨64, _⟩ => ⟨S131072, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S131072, .f32⟩
  | .hbm, ⟨70, _⟩ => ⟨S131072, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v3 : Ref sig .tc := ⟨.hbm, 25, rfl⟩
abbrev main_v4 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst : Ref sig .tc := ⟨.hbm, 52, rfl⟩
abbrev main_v9 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_c_2 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst_3 : Ref sig .tc := ⟨.hbm, 65, rfl⟩
abbrev main_v19 : Ref sig .tc := ⟨.hbm, 66, rfl⟩
abbrev main_cst_4 : Ref sig .tc := ⟨.hbm, 67, rfl⟩
abbrev main_call3_v0 : Ref sig .tc := ⟨.hbm, 68, rfl⟩
abbrev main_call3_v1 : Ref sig .tc := ⟨.hbm, 69, rfl⟩
abbrev main_v20 : Ref sig .tc := ⟨.hbm, 70, rfl⟩
abbrev main_cst_5 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩

abbrev nD : Nat := 1
abbrev τ : Topo := Topo.v7x

variable {F : FTy → Type} [FloatOps F]

class Facts₀ : Prop where
  reducesTo_S131072x1024_S131072_d1 : S131072x1024.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1024_0_1 : S131072x1.BroadcastsInDim S131072x1024 (![0, 1] : Fin 2 → Fin S131072x1024.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  shapeCasts_S131072x1_S131072 : S131072x1.ShapeCasts S131072
  reducesTo_S131072_S_d0 : S131072.ReducesTo [0] S_
  gather_S131072x1024_S131072x1x1_S131072x1_n_1_0_0_1_2_11_wf : GatherDims.WF S131072x1024 S131072x1x1 S131072x1 [] [1] [0] [1] [0] 2 ![1, 1]

variable [Facts₀]

def gather_S131072x1024_S131072x1x1_S131072x1_n_1_0_0_1_2_11 : GatherDims S131072x1024 S131072x1x1 S131072x1 where
  offsetDims := []
  collapsedSliceDims := [1]
  operandBatchingDims := [0]
  startIndicesBatchingDims := [0]
  startIndexMap := [1]
  indexVectorDim := 2
  sliceSizes := ![1, 1]
  wf := gather_S131072x1024_S131072x1x1_S131072x1_n_1_0_0_1_2_11_wf

class Facts : Prop extends Facts₀ where

variable [Facts]
-- ==== Proof.Spec.lean ====
/-
  The loss both programs compute, as ONE function of the argument arrays over the extended reals.

  For a row of logits `x : Fin 1024 → EReal`, a target word `tg`, and the two label weights `kn`, `un`:
  the row maximum `rowMax x` (the fold of `max` from −∞), the shifted logits `sh x j = x j − rowMax x`, the
  log-sum-exp of the shifted row `lse x = log (∑ⱼ exp (sh x j))`, the log-probability of the target
  `lp = sh x tg − lse x`, and the row's term `lp · kn + log (1 − exp lp + ε) · un`; a row whose target is
  the ignore label −100 contributes `0`. The float words (−∞, 0, 1, ε) stay as their bit patterns: both
  programs carry the same words, so none of them but the zero is ever evaluated.

  `accAt s n` is the running sum a grid row of 64 tiles leaves after linear point `n`: it starts again from
  the zero word at every point that is a multiple of 64, and otherwise adds tile `n`'s sum `s n` to what the
  point before left.
-/
import Idealize.ShloMosaic.PureOps.Ideal
import Idealize.ShloMosaic.PureOps.Ideal.Laws
import Idealize.ShloMosaic.Lib.ValueIdx

noncomputable section

namespace Cert.CeUl

open Idealize.ShloMosaic

/-- A row of 1024 logits. -/
abbrev Row := Fin 1024 → EReal

/-- −∞, 0, 1 and ε = f32(1e-10), as the words both programs print. -/
abbrev negInf : EReal := Ideal.ofBits .f32 0xFF800000#32
abbrev zeroF : EReal := Ideal.ofBits .f32 0x00000000#32
abbrev oneF : EReal := Ideal.ofBits .f32 0x3F800000#32
abbrev epsF : EReal := Ideal.ofBits .f32 0x2EDBE6FF#32
/-- The ignore label −100 as a 32-bit word. -/
abbrev ign : BitVec 32 := 4294967196#32

/-- The maximum of a row: the fold of `max` from −∞. -/
def rowMax (x : Row) : EReal := Finset.univ.fold max negInf x

/-- The row shifted by its maximum. -/
def sh (x : Row) (j : Fin 1024) : EReal := x j - rowMax x

/-- The shifted row at a natural-number column; `0` past the row's end (no column matches there). -/
def shN (x : Row) (k : ℕ) : EReal := if h : k < 1024 then sh x ⟨k, h⟩ else 0

/-- The log-sum-exp of the shifted row. -/
def lse (x : Row) : EReal := Ideal.log (∑ j, Ideal.exp (sh x j))

/-- A row's term from the target's log-probability: cross-entropy weighted by `kn`, unlikelihood by `un`. -/
def body (lp kn un : EReal) : EReal := lp * kn + Ideal.log (oneF - Ideal.exp lp + epsF) * un

/-- What one row adds to the total: nothing when its target is the ignore label. -/
def rowTerm (x : Row) (tg : BitVec 32) (kn un : EReal) : EReal :=
  if tg = ign then 0 else body (shN x tg.toNat - lse x) kn un

/-- A target is the ignore label or a class index. -/
def InRange (tg : BitVec 32) : Prop := tg = ign ∨ tg.toNat < 1024

/-- The running sum of a grid row of 64 tiles after linear point `n`, from tile sums `s`. -/
def accAt (s : ℕ → EReal) : ℕ → EReal
  | 0 => zeroF + s 0
  | n + 1 => if (n + 1) % 64 = 0 then zeroF + s (n + 1) else accAt s n + s (n + 1)

end Cert.CeUl

end
-- ==== Proof.TileValue.lean ====
/-
  The kernel body's arithmetic, read at an index, at the ideal values.

  For one grid point the body holds a block of 1024 rows of 1024 logits `x0`, a column of targets `x1` and two columns
  of label weights `x2`, `x3`. Row `r` of the block has logits `x j = x0 (r, j)`. The body takes the row maximum
  (a fold of `max` from −∞), shifts the row by it, takes the log of the sum of exponentials of the shifted row, and
  gathers the shifted logit of the target's column as a sum over the columns of "the shifted logit where the column
  counter equals the safe target, else 0", the safe target being class 0 on an ignored row. Exactly one column matches
  when the safe target is below 1024 and none otherwise, so the gathered sum is the shifted logit at that column, or 0.
  The row's term is then the cross-entropy and unlikelihood combination of the target's log-probability (`row_apply`).
  The block's update multiplies each row's term by the row mask (0 on an ignored row, 1 otherwise), sums over the rows
  and adds the sum to every entry of the output block: since `a · 0 = 0` and `a · 1 = a` on every extended real, the
  masked term is the specification's row term (`tile_apply`). The reset block is the zero word (`reset_apply`).
-/
import proofs.«409307_j28054726377866_2_alg».proof.Proof.Gen.KernelIdeal.Skeleton
import proofs.«409307_j28054726377866_2_alg».proof.Proof.Spec
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen
open scoped BigOperators

/-! ## Layout operations of the body, read at an index given by coordinates -/

section Layout
variable {α : Type}

/-- A vector of `a` entries cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, a, b]` reads its one entry everywhere. -/
theorem broadcastTo_111_1ab_apply {a b : ℕ} (v : (⟨3, ![1, 1, 1]⟩ : Shape).Idx → α)
    (h : (⟨3, ![1, 1, 1]⟩ : Shape).Broadcasts ⟨3, ![1, a, b]⟩) (u : Fin 1) (p : Fin a) (c : Fin b) :
    broadcastTo ⟨3, ![1, a, b]⟩ v h (ix3 u p c) = v (ix3 (0 : Fin 1) (0 : Fin 1) (0 : Fin 1)) := by
  refine broadcastTo_apply v h (ix3 u p c) (ix3 (0 : Fin 1) (0 : Fin 1) (0 : Fin 1)) fun ax => ?_
  match ax with
  | ⟨0, _⟩ => rfl
  | ⟨1, _⟩ => rfl
  | ⟨2, _⟩ => rfl

/-- Over a `[a, b]` array reduced along its columns, the source index over row `r` with column `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- Over an `[a, 1]` column reduced along its rows, the source index with row `k` is `(k, 0)`. -/
theorem lift_axis0 {a : ℕ} (h : (⟨2, ![a, 1]⟩ : Shape).Reduces [0] ⟨1, ![1]⟩) (u : Fin 1) (k : Fin a) :
    h.lift (ix1 u) k = ix2 k (0 : Fin 1) := by
  funext c
  match c with
  | ⟨0, _⟩ => exact Fin.ext rfl
  | ⟨1, _⟩ => exact Fin.ext (by show (u : ℕ) = 0; omega)

end Layout

/-! ## The body's three reductions, read at an index -/

/-- The maximum over the columns of a `[1024, 1024]` block from −∞ is, at row `r`, the row's maximum. -/
theorem rowMax_read (src : FVec Ideal S1024x1024 .f32) (h : S1024x1024.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = Cert.CeUl.rowMax (fun j => src (ix2 r j)) := by
  refine (Ideal.multiReduction_maximumf_single src 0xFF800000#32 h hφ hacc (ix1 r)).trans ?_
  show Finset.fold max (Ideal.ofBits .f32 0xFF800000#32) (fun j : Fin 1024 => src (h.lift (ix1 r) j)) Finset.univ
    = Finset.fold max Cert.CeUl.negInf (fun j : Fin 1024 => src (ix2 r j)) Finset.univ
  exact congrArg (fun f : Fin 1024 → EReal => Finset.fold max Cert.CeUl.negInf f Finset.univ)
    (funext fun j => congrArg src (lift_axis1 h r j))

/-- The sum over the columns of a `[1024, 1024]` block is, at row `r`, the sum of the row. -/
theorem rowSum_read (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r)
      = ∑ j : Fin 1024, src (ix2 r j) := by
  refine (Ideal.multiReduction_add_single src 0x00000000#32 h hφ hacc (ix1 r)).trans ?_
  show ∑ j : Fin 1024, src (h.lift (ix1 r) j) = ∑ j : Fin 1024, src (ix2 r j)
  exact Finset.sum_congr rfl fun j _ => congrArg src (lift_axis1 h r j)

/-- The sum over the rows of a `[1024, 1]` column is the sum of its entries. -/
theorem colSum_read (src : FVec Ideal S1024x1 .f32) (h : S1024x1.Reduces [0] S1) (hφ : FKind.Formats .f32)
    (hacc : (0x00000000#32 : BitVec 32) = 0x00000000#32) (u : Fin 1) :
    multiReduction (F := Ideal) .add [0] S1 src 0x00000000#32 h hφ hacc (ix1 u)
      = ∑ r : Fin 1024, src (ix2 r (0 : Fin 1)) := by
  refine (Ideal.multiReduction_add_single src 0x00000000#32 h hφ hacc (ix1 u)).trans ?_
  show ∑ k : Fin 1024, src (h.lift (ix1 u) k) = ∑ r : Fin 1024, src (ix2 r (0 : Fin 1))
  exact Finset.sum_congr rfl fun k _ => congrArg src (lift_axis0 h u k)

/-! ## Words: the comparisons and selects of the body at one element -/

/-- A select on "`a` equals `b`" is the `if`. -/
theorem select_cmpi_eq {α : Type} {w : ℕ} (a b : BitVec w) (A B : α) :
    Scalar.select (IntOp.cmpi .eq a b) A B = if a = b then A else B := by
  unfold Scalar.select
  exact if_congr IntOp.cmpi_eq rfl rfl

/-- The column number `j` as a 32-bit word is `s` exactly when `j` is `s` read as a natural number. -/
theorem ofNat_eq_iff (j : Fin 1024) (s : BitVec 32) : BitVec.ofNat 32 j.val = s ↔ j.val = s.toNat := by
  have hj : (BitVec.ofNat 32 j.val).toNat = j.val := by
    rw [BitVec.toNat_ofNat]; exact Nat.mod_eq_of_lt (by have := j.isLt; omega)
  rw [← BitVec.toNat_inj, hj]

/-- The target made safe: the ignore label is replaced by class 0. -/
def safe (tg : BitVec 32) : BitVec 32 := if tg = Cert.CeUl.ign then 0#32 else tg

/-- The row mask: 0 on an ignored row, 1 on every other. -/
theorem valid_read (tg : BitVec 32) :
    FloatOps.sitofp (F := Ideal) .f32 ((IntOp.cmpi .ne tg Cert.CeUl.ign).setWidth 32)
      = if tg = Cert.CeUl.ign then (0 : EReal) else 1 := by
  by_cases h : tg = Cert.CeUl.ign
  · have hc : IntOp.cmpi .ne tg Cert.CeUl.ign = 0#1 :=
      eq_zero_of_ne_one fun h1 => (IntOp.cmpi_ne.mp h1) h
    rw [hc, if_pos h]
    show (((((0#1 : BitVec 1).setWidth 32).toInt : ℤ) : ℝ) : EReal) = 0
    have : ((0#1 : BitVec 1).setWidth 32).toInt = 0 := by decide
    rw [this]; simp
  · have hc : IntOp.cmpi .ne tg Cert.CeUl.ign = 1#1 := IntOp.cmpi_ne.mpr h
    rw [hc, if_neg h]
    show (((((1#1 : BitVec 1).setWidth 32).toInt : ℤ) : ℝ) : EReal) = 1
    have : ((1#1 : BitVec 1).setWidth 32).toInt = 1 := by decide
    rw [this]; simp

/-- The gathered sum: the one column equal to the word `s` contributes its shifted logit, every other column `0`;
    past the row's end no column matches. -/
theorem gathered_read (x : Cert.CeUl.Row) (s : BitVec 32) :
    ∑ j : Fin 1024, (if BitVec.ofNat 32 j.val = s then Cert.CeUl.sh x j else Ideal.ofBits .f32 0x00000000#32)
      = Cert.CeUl.shN x s.toNat := by
  have hterm : ∀ j : Fin 1024,
      (if BitVec.ofNat 32 j.val = s then Cert.CeUl.sh x j else Ideal.ofBits .f32 0x00000000#32)
        = if j.val = s.toNat then Cert.CeUl.sh x j else 0 := fun j => by
    rw [Ideal.ofBits_zero_f32]
    exact if_congr (ofNat_eq_iff j s) rfl rfl
  rw [Finset.sum_congr rfl fun j _ => hterm j]
  unfold Cert.CeUl.shN
  split
  · next h =>
    rw [Finset.sum_eq_single (⟨s.toNat, h⟩ : Fin 1024)]
    · exact if_pos rfl
    · intro j _ hj
      exact if_neg fun e => hj (Fin.ext e)
    · intro hn; exact absurd (Finset.mem_univ _) hn
  · next h =>
    exact Finset.sum_eq_zero fun j _ => if_neg fun e => h (by rw [← e]; exact j.isLt)

/-! ## Pointwise operations read at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : ℕ} (p : CmpIPredicate) (a b : IVec s w) (i : s.Idx) :
    cmpi p a b i = IntOp.cmpi p (a i) (b i) := rfl
/-- The column counter of the block reads, at `(r, j)`, the column `j` as a 32-bit word. -/
theorem iota_read (h : S1024x1024.Iotas .tc 32 [1]) (r j : Fin 1024) :
    iota .tc S1024x1024 32 [1] h (ix2 r j) = BitVec.ofNat 32 j.val :=
  iota_single_apply .tc S1024x1024 32 1 h (ix2 r j)

/-! ## The row term and the tile's update -/

/-- The body's column of row terms reads, at row `r`, the term of the row's logits at the safe target: the
    log-probability is the gathered shifted logit minus the log-sum-exp of the shifted row. -/
theorem row_apply (x0 : Vec Ideal S1024x1024 .f32) (x1 : Vec Ideal S1024x1 .i32) (x2 x3 : Vec Ideal S1024x1 .f32)
    (r : Fin 1024) :
    k0_pay4 (F := Ideal) x0 x1 x2 x3 (ix2 r (0 : Fin 1))
      = Cert.CeUl.body
          (Cert.CeUl.shN (fun j => x0 (ix2 r j)) (safe (x1 (ix2 r 0))).toNat - Cert.CeUl.lse (fun j => x0 (ix2 r j)))
          (x2 (ix2 r 0)) (x3 (ix2 r 0)) := by
  unfold k0_pay4 k0_pay3
  simp only [addf_apply, mulf_apply, subf_apply, exp_apply, log_apply, cmpi_apply, broadcast_apply, select_apply,
    shapeCast_self, shapeCast_a_a1_apply, Ideal.ofBits_def]
  rw [rowSum_read, rowSum_read]
  simp only [subf_apply, exp_apply, cmpi_apply, broadcast_apply, select_apply, shapeCast_self,
    shapeCast_a_a1_apply, broadcastTo_a1_ab_apply, select_cmpi_eq]
  rw [rowMax_read]
  have hiota : ∀ j : Fin 1024, iota .tc S1024x1024 32 [1] iota_S1024x1024_d1_w32 (ix2 r j) = BitVec.ofNat 32 j.val :=
    fun j => iota_read _ r j
  simp only [hiota]
  have hg := gathered_read (fun j => x0 (ix2 r j)) (safe (x1 (ix2 r 0)))
  show ((∑ j : Fin 1024, (if BitVec.ofNat 32 j.val = safe (x1 (ix2 r 0))
            then Cert.CeUl.sh (fun j => x0 (ix2 r j)) j else Ideal.ofBits .f32 0x00000000#32))
          - Cert.CeUl.lse (fun j => x0 (ix2 r j))) * x2 (ix2 r 0)
      + Ideal.log (Cert.CeUl.oneF
          - Ideal.exp ((∑ j : Fin 1024, (if BitVec.ofNat 32 j.val = safe (x1 (ix2 r 0))
              then Cert.CeUl.sh (fun j => x0 (ix2 r j)) j else Ideal.ofBits .f32 0x00000000#32))
            - Cert.CeUl.lse (fun j => x0 (ix2 r j)))
          + Cert.CeUl.epsF) * x3 (ix2 r 0) = _
  rw [hg]
  rfl

/-- One grid point's update of the output block: every entry of the block gains the tile's sum of row terms. -/
theorem tile_apply (x0 : Vec Ideal S1024x1024 .f32) (x1 : Vec Ideal S1024x1 .i32) (x2 x3 : Vec Ideal S1024x1 .f32)
    (v46 : Vec Ideal S1x8x128 .f32) (a : Fin 8) (b : Fin 128) :
    k0_pay1 (F := Ideal) (k0_pay3 x1) (k0_pay4 x0 x1 x2 x3) v46 (ix3 0 a b)
      = v46 (ix3 0 a b) + ∑ r : Fin 1024, Cert.CeUl.rowTerm (fun j => x0 (ix2 r j)) (x1 (ix2 r 0)) (x2 (ix2 r 0)) (x3 (ix2 r 0)) := by
  unfold k0_pay1 k0_pay3
  simp only [addf_apply, shapeCast_self, broadcastTo_111_1ab_apply, shapeCast_ab_1ab_apply, shapeCast_a_a1_apply]
  rw [colSum_read]
  simp only [mulf_apply, sitofp_apply, extui_apply, cmpi_apply, broadcast_apply]
  refine congrArg (v46 (ix3 0 a b) + ·) (Finset.sum_congr rfl fun r _ => ?_)
  rw [row_apply, valid_read]
  unfold Cert.CeUl.rowTerm safe
  by_cases h : x1 (ix2 r 0) = Cert.CeUl.ign
  · simp only [if_pos h, mul_zero]
  · simp only [if_neg h, mul_one]

/-- The reset block is the zero word everywhere. -/
theorem reset_apply (y : S1x8x128.Idx) : k0_pay2 (F := Ideal) y = Cert.CeUl.zeroF := rfl

end Cert.KernelIdeal.Tile

end
-- ==== Proof.Blocks.lean ====
/-
  The input blocks of the kernel's grid, read off the argument arrays.

  The grid has 128 points; point `t` stages rows `1024·t … 1024·t + 1023` of each input: the logits block is the
  rows' 1024 columns, and the three column blocks (target, and the two label weights) are the rows' single entries
  of the arrays the host reshaped from the length-131072 arguments into one column. So entry `(r, j)` of the logits
  block at `t` is the logits array at `(1024·t + r, j)`, and entry `(r, 0)` of a column block at `t` is the
  corresponding argument at `1024·t + r`.
-/
import proofs.«409307_j28054726377866_2_alg».proof.Proof.Gen.KernelIdeal.Frame
import Idealize.ShloMosaic.Lib.Pipeline.Value
import Idealize.ShloMosaic.Lib.ValueIdx
import Idealize.ShloMosaic.Lib.StableHlo.Run
import proofs.«409307_j28054726377866_2_alg».proof.Proof.TileValue

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The grid's point count, as a number. -/
theorem points : cfg0.N = 128 := N_0

/-- Row `r` of the tile at point `t`, as a row of the whole arrays. -/
def gRow (t : Fin cfg0.N) (r : Fin 1024) : Fin 131072 :=
  ⟨1024 * t.val + r.val, by have := lt_of_lt_of_eq t.isLt points; have := r.isLt; omega⟩

/-- The four input blocks at a point, at their literal types. -/
abbrev logitsBlk (c : Dev nD) (t : Fin cfg0.N) : Vec F S1024x1024 .f32 := iblk m c 0 t
abbrev targetBlk (c : Dev nD) (t : Fin cfg0.N) : Vec F S1024x1 .i32 := iblk m c 1 t
abbrev knownBlk (c : Dev nD) (t : Fin cfg0.N) : Vec F S1024x1 .f32 := iblk m c 2 t
abbrev unknownBlk (c : Dev nD) (t : Fin cfg0.N) : Vec F S1024x1 .f32 := iblk m c 3 t

/-- Every input window's block index at point `t` is `(t, 0)`. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The logits block at `t`, entry `(r, j)`: the logits argument at `(1024·t + r, j)`. -/
theorem logitsBlk_apply (c : Dev nD) (t : Fin cfg0.N) (r j : Fin 1024) :
    logitsBlk m c t (ix2 r j) = m ((c : Thread nD τ).loc main_arg0) (ix2 (gRow t r) j) := by
  unfold logitsBlk iblk
  rw [View.read_apply]
  show V m c main_arg0 _ = _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 1024 + 1 * j.val = j.val; rw [(index0 t).2]; omega

/-- The array window 1 stages is the host's one-column reshape of target. -/
theorem targetArr (c : Dev nD) :
    (V m c main_v0 : S131072x1.Idx → Elt F .i32) = shapeCast S131072x1 (m ((c : Thread nD τ).loc main_arg1)) shapeCasts_S131072_S131072x1 := by
  show StableHlo.after hostOps0 (fun b => m (c, b)) (Proc.devRef .tc main_v0) = _
  after_results
  rfl

/-- The target block at `t`, entry `(r, 0)`: the argument at `1024·t + r`. -/
theorem targetBlk_apply (c : Dev nD) (t : Fin cfg0.N) (r : Fin 1024) :
    targetBlk m c t (ix2 r 0) = m ((c : Thread nD τ).loc main_arg1) (ix1 (gRow t r)) := by
  unfold targetBlk iblk
  rw [View.read_apply]
  show V m c main_v0 _ = _
  rw [targetArr]
  refine Eq.trans ?_ (Cert.KernelIdeal.Tile.shapeCast_a_a1_apply (m ((c : Thread nD τ).loc main_arg1)) shapeCasts_S131072_S131072x1 (gRow t r) 0)
  congr 1
  funext a
  apply Fin.ext
  match a with
  | ⟨0, _⟩ => show win0_1.index t 0 * 1024 + 1 * r.val = 1024 * t.val + r.val; rw [(index1 t).1]; omega
  | ⟨1, _⟩ => show win0_1.index t 1 * 1 + 1 * 0 = 0; rw [(index1 t).2]

/-- The array window 2 stages is the host's one-column reshape of known-label weight. -/
theorem knownArr (c : Dev nD) :
    (V m c main_v1 : S131072x1.Idx → Elt F .f32) = shapeCast S131072x1 (m ((c : Thread nD τ).loc main_arg2)) shapeCasts_S131072_S131072x1 := by
  show StableHlo.after hostOps0 (fun b => m (c, b)) (Proc.devRef .tc main_v1) = _
  after_results
  rfl

/-- The known-label weight block at `t`, entry `(r, 0)`: the argument at `1024·t + r`. -/
theorem knownBlk_apply (c : Dev nD) (t : Fin cfg0.N) (r : Fin 1024) :
    knownBlk m c t (ix2 r 0) = m ((c : Thread nD τ).loc main_arg2) (ix1 (gRow t r)) := by
  unfold knownBlk iblk
  rw [View.read_apply]
  show V m c main_v1 _ = _
  rw [knownArr]
  refine Eq.trans ?_ (Cert.KernelIdeal.Tile.shapeCast_a_a1_apply (m ((c : Thread nD τ).loc main_arg2)) shapeCasts_S131072_S131072x1 (gRow t r) 0)
  congr 1
  funext a
  apply Fin.ext
  match a with
  | ⟨0, _⟩ => show win0_2.index t 0 * 1024 + 1 * r.val = 1024 * t.val + r.val; rw [(index2 t).1]; omega
  | ⟨1, _⟩ => show win0_2.index t 1 * 1 + 1 * 0 = 0; rw [(index2 t).2]

/-- The array window 3 stages is the host's one-column reshape of unknown-label weight. -/
theorem unknownArr (c : Dev nD) :
    (V m c main_v2 : S131072x1.Idx → Elt F .f32) = shapeCast S131072x1 (m ((c : Thread nD τ).loc main_arg3)) shapeCasts_S131072_S131072x1 := by
  show StableHlo.after hostOps0 (fun b => m (c, b)) (Proc.devRef .tc main_v2) = _
  after_results
  rfl

/-- The unknown-label weight block at `t`, entry `(r, 0)`: the argument at `1024·t + r`. -/
theorem unknownBlk_apply (c : Dev nD) (t : Fin cfg0.N) (r : Fin 1024) :
    unknownBlk m c t (ix2 r 0) = m ((c : Thread nD τ).loc main_arg3) (ix1 (gRow t r)) := by
  unfold unknownBlk iblk
  rw [View.read_apply]
  show V m c main_v2 _ = _
  rw [unknownArr]
  refine Eq.trans ?_ (Cert.KernelIdeal.Tile.shapeCast_a_a1_apply (m ((c : Thread nD τ).loc main_arg3)) shapeCasts_S131072_S131072x1 (gRow t r) 0)
  congr 1
  funext a
  apply Fin.ext
  match a with
  | ⟨0, _⟩ => show win0_3.index t 0 * 1024 + 1 * r.val = 1024 * t.val + r.val; rw [(index3 t).1]; omega
  | ⟨1, _⟩ => show win0_3.index t 1 * 1 + 1 * 0 = 0; rw [(index3 t).2]

end Cert.KernelIdeal.Blocks

end
-- ==== Proof.Pieces.lean ====
/-
  What one run of the kernel body leaves in the output block, as a value.

  The body reads its four input blocks whole (logits `x0`, targets `x1`, the two label weights `x2`, `x3`), and
  stores the output block once, whole: the block it found plus the tile's sum, `k0_pay1 … acc`. At a point that
  starts a grid row it first stores the zero block `k0_pay2` and reads that back, so what it found there is the
  zero block; at every other point it found what the point before left, `acc`. The one store covers the block, so
  the block ends at exactly that store's value, the loads being the blocks themselves.
-/
import proofs.«409307_j28054726377866_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- Every load and store of the body starts at the origin of its block. -/
theorem origin2 : (![0, 0] : Fin 2 → Nat) = fun _ => 0 := funext fun a => by fin_cases a <;> rfl
theorem origin3 : (![0, 0, 0] : Fin 3 → Nat) = fun _ => 0 := funext fun a => by fin_cases a <;> rfl

/-- At a point inside a grid row: the block that held `acc` ends at `acc` updated by the tile. -/
theorem block_B (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x8x128 .f32) (harg6 : arg6.IsWhole) (hc0 : ¬cond0_0 i) (x0 : Vec F S1024x1024 .f32) (x1 : Vec F S1024x1 .i32) (x2 : Vec F S1024x1 .f32) (x3 : Vec F S1024x1 .f32) (acc : Vec F S1x8x128 .f32) :
    out0_B_4 c i arg2 harg2 arg3 harg3 arg4 harg4 arg5 harg5 arg6 harg6 hc0 x0 x1 x2 x3 acc = k0_pay1 (k0_pay3 x1) (k0_pay4 x0 x1 x2 x3) acc := by
  unfold out0_B_4
  rw [View.read_writes_eq_canon _ _ _ (cover0_B_4 c i arg2 harg2 arg3 harg3 arg4 harg4 arg5 harg5 arg6 harg6 hc0 x0 x1 x2 x3 acc)]
  unfold kernelRun0_B
  dsimp only
  sl_unfold_words
  rw [View.canon_unit_zero origin3]
  simp only [View.readAt_eq_ld, harg2.read_unread, harg3.read_unread, harg4.read_unread, harg5.read_unread,
    harg6.read_unread, View.ld_unit_zero (S := S1024x1024) origin2, View.ld_unit_zero (S := S1024x1) origin2,
    View.ld_unit_zero (S := S1x8x128) origin3]

/-- At a point that starts a grid row: the block ends at the zero block updated by the tile. -/
theorem block_A (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x8x128 .f32) (harg6 : arg6.IsWhole) (hc0 : cond0_0 i) (x0 : Vec F S1024x1024 .f32) (x1 : Vec F S1024x1 .i32) (x2 : Vec F S1024x1 .f32) (x3 : Vec F S1024x1 .f32) :
    out0_A_4 c i arg2 harg2 arg3 harg3 arg4 harg4 arg5 harg5 arg6 harg6 hc0 x0 x1 x2 x3 = k0_pay1 (k0_pay3 x1) (k0_pay4 x0 x1 x2 x3) (k0_pay2 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x8x128) origin3, View.readCov_unit_zero (S := S1x8x128) _ origin3]
  simp only [View.readAt_eq_ld, harg2.read_unread, harg3.read_unread, harg4.read_unread, harg5.read_unread,
    View.ld_unit_zero (S := S1024x1024) origin2, View.ld_unit_zero (S := S1024x1) origin2,
    View.ld_unit_zero (S := S1x8x128) origin3]

end Cert.KernelIdeal.Pieces

end
-- ==== Proof.Accum.lean ====
/-
  What the output block holds after each grid point.

  Tile `k`'s sum is the sum, over its 1024 rows, of the specification's row term of the arguments at row
  `1024·k + r`. One run of the body adds that sum to every entry of the output block: to the zero block at a point
  that starts a grid row (a multiple of 64), to what the point before left otherwise. By induction on the linear
  point, every entry of the output block after point `n` is the specification's running sum `accAt` of the tile sums.
-/
import proofs.«409307_j28054726377866_2_alg».proof.Proof.Blocks
import proofs.«409307_j28054726377866_2_alg».proof.Proof.Pieces

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.CeUl

variable (m : (ℓ : Loc nD τ sig) → Buf (Elt Ideal) ℓ)

/-- Row `i`'s term, from the four argument arrays. -/
def rowAt (c : Dev nD) (i : Fin 131072) : EReal :=
  rowTerm (fun j => m ((c : Thread nD τ).loc main_arg0) (ix2 i j)) (m ((c : Thread nD τ).loc main_arg1) (ix1 i))
    (m ((c : Thread nD τ).loc main_arg2) (ix1 i)) (m ((c : Thread nD τ).loc main_arg3) (ix1 i))

/-- Tile `k`'s sum of row terms (`0` past the grid). -/
def tileSum (c : Dev nD) (k : ℕ) : EReal :=
  if hk : k < cfg0.N then ∑ r : Fin 1024, rowAt m c (gRow ⟨k, hk⟩ r) else 0

/-- One run of the body at point `t` adds tile `t`'s sum to every entry of the block it found. -/
theorem update_eq (c : Dev nD) (t : Fin cfg0.N) (acc : Vec Ideal S1x8x128 .f32) (a : Fin 8) (b : Fin 128) :
    k0_pay1 (F := Ideal) (k0_pay3 (targetBlk m c t))
        (k0_pay4 (logitsBlk m c t) (targetBlk m c t) (knownBlk m c t) (unknownBlk m c t)) acc (ix3 0 a b)
      = acc (ix3 0 a b) + tileSum m c t.val := by
  rw [Cert.KernelIdeal.Tile.tile_apply]
  unfold tileSum
  rw [dif_pos t.isLt]
  refine congrArg (acc (ix3 0 a b) + ·) (Finset.sum_congr rfl fun r _ => ?_)
  unfold rowAt
  simp only [logitsBlk_apply, targetBlk_apply, knownBlk_apply, unknownBlk_apply]

/-- Every entry of the output block after linear point `n` is the running sum of the tile sums. -/
theorem outs_eq (c : Dev nD) : ∀ (n : ℕ) (h : n < cfg0.N) (a : Fin 8) (b : Fin 128),
    outsAt0 m c n h (ix3 0 a b) = accAt (tileSum m c) n
  | 0, h, a, b => by
    rw [outsAt0_A m c ⟨0, h⟩ rfl, Cert.KernelIdeal.Pieces.block_A]
    show k0_pay1 (F := Ideal) (k0_pay3 (targetBlk m c ⟨0, h⟩))
        (k0_pay4 (logitsBlk m c ⟨0, h⟩) (targetBlk m c ⟨0, h⟩) (knownBlk m c ⟨0, h⟩) (unknownBlk m c ⟨0, h⟩)) (k0_pay2 (F := Ideal)) (ix3 0 a b) = _
    rw [update_eq, Cert.KernelIdeal.Tile.reset_apply]
    rfl
  | n + 1, h, a, b => by
    by_cases h0 : (n + 1) % 64 = 0
    · rw [outsAt0_A m c ⟨n + 1, h⟩ h0, Cert.KernelIdeal.Pieces.block_A]
      show k0_pay1 (F := Ideal) (k0_pay3 (targetBlk m c ⟨n + 1, h⟩))
          (k0_pay4 (logitsBlk m c ⟨n + 1, h⟩) (targetBlk m c ⟨n + 1, h⟩) (knownBlk m c ⟨n + 1, h⟩) (unknownBlk m c ⟨n + 1, h⟩)) (k0_pay2 (F := Ideal)) (ix3 0 a b) = _
      rw [update_eq, Cert.KernelIdeal.Tile.reset_apply]
      show _ = if (n + 1) % 64 = 0 then zeroF + tileSum m c (n + 1) else accAt (tileSum m c) n + tileSum m c (n + 1)
      rw [if_pos h0]
    · rw [outsAt0_B m c ⟨n + 1, h⟩ h0, Cert.KernelIdeal.Pieces.block_B]
      show k0_pay1 (F := Ideal) (k0_pay3 (targetBlk m c ⟨n + 1, h⟩))
          (k0_pay4 (logitsBlk m c ⟨n + 1, h⟩) (targetBlk m c ⟨n + 1, h⟩) (knownBlk m c ⟨n + 1, h⟩) (unknownBlk m c ⟨n + 1, h⟩))
          (outsAt0 m c n (Nat.lt_of_succ_lt h)) (ix3 0 a b) = _
      rw [update_eq, outs_eq c n (Nat.lt_of_succ_lt h) a b]
      show _ = if (n + 1) % 64 = 0 then zeroF + tileSum m c (n + 1) else accAt (tileSum m c) n + tileSum m c (n + 1)
      rw [if_neg h0]

end Cert.KernelIdeal.Accum

end
-- ==== Proof.Sums.lean ====
/-
  Sums over the grid, regrouped.

  The running sum along a grid row of 64 tiles has a closed form: after tile `r` of row `q` it is the zero word plus
  the first `r + 1` tile sums of that row (`accAt_row`). The two grid rows together run over 128 tiles, and 128 tiles
  of 1024 rows are the 131072 rows of the arrays, each once (`tiles_sum`), so the two row totals add up to the sum
  over all rows (`grid_total`). Addition of extended reals is commutative and associative, which is all this uses;
  the zero word is the extended real `0`.
-/
import proofs.«409307_j28054726377866_2_alg».proof.Proof.Spec
import Mathlib.Algebra.BigOperators.Fin

noncomputable section

namespace Cert.CeUl

open Idealize.ShloMosaic
open scoped BigOperators

/-- After tile `r` of grid row `q`: the zero word plus the row's first `r + 1` tile sums. -/
theorem accAt_row (s : ℕ → EReal) (q : ℕ) :
    ∀ r, r < 64 → accAt s (64 * q + r) = zeroF + ∑ k ∈ Finset.range (r + 1), s (64 * q + k)
  | 0, _ => by
    rw [Finset.sum_range_one]
    cases q with
    | zero => rfl
    | succ q' =>
      have e : 64 * (q' + 1) + 0 = (64 * q' + 63) + 1 := by omega
      rw [e]
      show (if (64 * q' + 63 + 1) % 64 = 0 then zeroF + s (64 * q' + 63 + 1) else _) = _
      rw [if_pos (by omega)]
  | r + 1, h => by
    have e : 64 * q + (r + 1) = (64 * q + r) + 1 := by omega
    rw [e]
    show (if (64 * q + r + 1) % 64 = 0 then _ else accAt s (64 * q + r) + s (64 * q + r + 1)) = _
    rw [if_neg (by omega), accAt_row s q r (by omega), Finset.sum_range_succ (fun k => s (64 * q + k)) (r + 1), add_assoc]
    rfl

/-- 128 tiles of 1024 rows are the 131072 rows, each once. -/
theorem tiles_sum (f : Fin 131072 → EReal) :
    ∑ k : Fin 128, ∑ r : Fin 1024, f ⟨1024 * k.val + r.val, by have := k.isLt; have := r.isLt; omega⟩ = ∑ i, f i := by
  rw [← Fintype.sum_prod_type' (f := fun (k : Fin 128) (r : Fin 1024) => f ⟨1024 * k.val + r.val, by have := k.isLt; have := r.isLt; omega⟩)]
  refine Fintype.sum_equiv (finProdFinEquiv (m := 128) (n := 1024)) _ _ fun p => ?_
  refine congrArg f (Fin.ext ?_)
  show 1024 * p.1.val + p.2.val = p.2.val + 1024 * p.1.val
  omega

/-- The two grid rows' totals, from the zero word, are the zero word plus the sum over all rows. -/
theorem grid_total (s : ℕ → EReal) (f : Fin 131072 → EReal)
    (hs : ∀ k : Fin 128, s k.val = ∑ r : Fin 1024, f ⟨1024 * k.val + r.val, by have := k.isLt; have := r.isLt; omega⟩) :
    zeroF + (accAt s 63 + accAt s 127) = zeroF + ∑ i, f i := by
  have h0 := accAt_row s 0 63 (by omega)
  have h1 := accAt_row s 1 63 (by omega)
  simp only [Nat.mul_zero, Nat.zero_add, Nat.mul_one] at h0 h1
  rw [show (63 : ℕ) = 63 from rfl] at h0
  rw [h0, show (127 : ℕ) = 64 + 63 from rfl, h1]
  have hz : zeroF = 0 := Ideal.ofBits_zero_f32
  rw [hz, zero_add, zero_add, zero_add, zero_add, ← Finset.sum_range_add (fun k => s k) 64 64,
    ← Fin.sum_univ_eq_sum_range (fun k => s k) 128, ← tiles_sum f]
  exact Finset.sum_congr rfl fun k _ => hs k

end Cert.CeUl

end
-- ==== Proof.Final.lean ====
/-
  The kernel's result, read off its run.

  The output window's block at linear point `t` is block `(t / 64, 0, 0)` of the [2, 8, 128] result array, written
  back at the last point of each grid row (`t % 64 = 63`). So after the run every entry of row-block `h` of that
  array holds grid row `h`'s total, the running sum after point `64·h + 63`; the two flushed blocks cover the array.
  The host operations after the region take entry `(h, 0, 0)` of each row-block, add the two from the zero word,
  negate, and divide by the count of rows whose target is not the ignore label. With the tile sums regrouped into one
  sum over all 131072 rows (Sums), the result is `−(0-word + ∑ᵢ rowTermᵢ) / count`.
-/
import proofs.«409307_j28054726377866_2_alg».proof.Proof.Accum
import proofs.«409307_j28054726377866_2_alg».proof.Proof.Sums
import Idealize.ShloMosaic.Lib.ValueIdxRank1

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum Cert.CeUl

variable (m : (ℓ : Loc nD τ sig) → Buf (Elt Ideal) ℓ) (ρ : Dev nD → PrngReg)

/-- The result array: every entry of row-block `h` holds grid row `h`'s total. -/
def totals (c : Dev nD) : Vec Ideal S2x8x128 .f32 := fun y => accAt (tileSum m c) (64 * (y 0).val + 63)

/-- Every entry of the output block after point `n` is the running sum (the block's first axis has one index). -/
theorem outs_at (c : Dev nD) (n : ℕ) (h : n < cfg0.N) (y : S1x8x128.Idx) :
    outsAt0 m c n h y = accAt (tileSum m c) n := by
  have hy0 : y 0 = (0 : Fin 1) := Fin.ext (by have h1 : (y 0).val < 1 := (y 0).isLt; show (y 0).val = 0; omega)
  have e : y = ix3 (0 : Fin 1) (y 1) (y 2) := (eq_ix3 y).trans (congrArg (fun z => ix3 z (y 1) (y 2)) hy0)
  rw [e]
  exact outs_eq m c n h _ _

/-- The output window's block index at point `t` is `(t / 64, 0, 0)`. -/
theorem index4 : ∀ t : Fin cfg0.N, win0_4.index t (0 : Fin 3) = t.val / 64 ∧ win0_4.index t (1 : Fin 3) = 0
    ∧ win0_4.index t (2 : Fin 3) = 0 :=
  (by decide +kernel : ∀ t : Fin grid0.N, win0_4.index t (0 : Fin 3) = t.val / 64 ∧ win0_4.index t (1 : Fin 3) = 0
    ∧ win0_4.index t (2 : Fin 3) = 0)

/-- What a flushing point writes back is its block of `totals`. -/
theorem flushed_eq (c : Dev nD) (t : Fin cfg0.N) (hf : (cfg0.win 4).flush t = true) :
    (dats m 0 c).flushed 4 t = ((cfg0.win 4).blk t).view.read (Elt Ideal) (totals m c) := by
  have h63 : t.val % 64 = 63 := (flush0_4 t).mp hf
  show (cfg0.win 4).cut (grid0.coords t) ((dats m 0 c).after 4 t) = _
  rw [after0_4]
  funext y
  show outsAt0 m c t.val t.isLt y = accAt (tileSum m c) (64 * (win0_4.index t (0 : Fin 3) * 1 + 1 * (y 0).val) + 63)
  rw [outs_at, (index4 t).1]
  have hy : (y 0).val < 1 := (y 0).isLt
  congr 1
  omega

/-- An index of the result array is in point `t`'s block iff each coordinate is in the block's range. -/
theorem mem_blk (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v3).slice (win0_4.rect t)).set ↔ _
  rw [View.set_slice_whole, Rect.mem_set_unit]
  exact Iff.rfl

/-- The result array after the run. -/
theorem final (c : Dev nD) : (dats m 0 c).arrAt 4 cfg0.N = totals m c :=
  (dats m 0 c).arrAt_eq_of_cover 4 (totals m c) (flushed_eq m c) fun i => by
    have hN : grid0.N = 128 := N_0
    have hi0 : ((i : S2x8x128.Idx) 0).val < 2 := ((i : S2x8x128.Idx) 0).isLt
    have hi1 : ((i : S2x8x128.Idx) 1).val < 8 := ((i : S2x8x128.Idx) 1).isLt
    have hi2 : ((i : S2x8x128.Idx) 2).val < 128 := ((i : S2x8x128.Idx) 2).isLt
    have hlt : 64 * ((i : S2x8x128.Idx) 0).val + 63 < cfg0.N := by show _ < grid0.N; omega
    refine ⟨⟨64 * ((i : S2x8x128.Idx) 0).val + 63, hlt⟩, (flush0_4 _).mpr (by show (64 * ((i : S2x8x128.Idx) 0).val + 63) % 64 = 63; omega), ?_⟩
    rw [mem_blk]
    obtain ⟨e0, e1, e2⟩ := index4 ⟨64 * ((i : S2x8x128.Idx) 0).val + 63, hlt⟩
    have e0' : win0_4.index ⟨64 * ((i : S2x8x128.Idx) 0).val + 63, hlt⟩ (0 : Fin 3) = ((i : S2x8x128.Idx) 0).val := by rw [e0]; show (64 * ((i : S2x8x128.Idx) 0).val + 63) / 64 = _; omega
    intro a
    match a with
    | ⟨0, _⟩ => show win0_4.index _ (0 : Fin 3) * 1 ≤ ((i : S2x8x128.Idx) 0).val ∧ ((i : S2x8x128.Idx) 0).val < win0_4.index _ (0 : Fin 3) * 1 + 1; rw [e0']; omega
    | ⟨1, _⟩ => show win0_4.index _ (1 : Fin 3) * 8 ≤ ((i : S2x8x128.Idx) 1).val ∧ ((i : S2x8x128.Idx) 1).val < win0_4.index _ (1 : Fin 3) * 8 + 8; rw [e1]; omega
    | ⟨2, _⟩ => show win0_4.index _ (2 : Fin 3) * 128 ≤ ((i : S2x8x128.Idx) 2).val ∧ ((i : S2x8x128.Idx) 2).val < win0_4.index _ (2 : Fin 3) * 128 + 128; rw [e2]; omega

/-! ## The host operations after the region -/

/-- The count of rows whose target is not the ignore label, as the host computes it from the targets. -/
def count (c : Dev nD) : FVec Ideal S_ .f32 :=
  Host.reduceAdd (uitofp .f32 (cmpi .ne (m ((c : Thread nD τ).loc main_arg1))
      (broadcastInDim S131072 ![] bcast_S_S131072 (constantI S_ 32 4294967196#32))))
    (constant S_ .f32 0x00000000#32) reducesTo_S131072_S_d0 h_S_

/-- The two grid rows' totals, taken at entry `(h, 0, 0)` of each row-block and added from the zero word. -/
def numer (c : Dev nD) : FVec Ideal S_ .f32 :=
  Host.reduceAdd (shapeCast S2 (extractStridedSlice S2x1x1 ![0, 0, 0] (totals m c) slices_S2x8x128_S2x1x1_0_0_0) shapeCasts_S2x1x1_S2)
    (constant S_ .f32 0x00000000#32) reducesTo_S2_S_d0 h_S_

/-- The kernel's result: the negated sum over the count. -/
def loss (c : Dev nD) : FVec Ideal S_ .f32 := Host.divf (Host.negf (numer m c)) (count m c)

/-- The result buffer after the host tail, from the result array the region left and the untouched targets. -/
theorem tail_eq (c : Dev nD) : Pipeline.afterTail₀ cfgs (dats m) 0 (V0 m) [hostOps1] c main_v12 = loss m c := by
  have e3 : Pipeline.withArrays spec0 c (V0 m c) (fun w => (dats m 0 c).arrAt w cfg0.N) (Proc.devRef .tc main_v3) = totals m c :=
    (Pipeline.withArrays_arr spec0 launch0.win.arr_inj c _ _ 4).trans (final m c)
  have e1 : Pipeline.withArrays spec0 c (V0 m c) (fun w => (dats m 0 c).arrAt w cfg0.N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v12) = _
  after_results
  rw [e3, e1]
  rfl

/-- The run, read: the result at `loss`, the arguments unchanged. -/
theorem run : θ_run defs (onTc (τ := τ) (main (F := Ideal))) ⟨m, fun _ => 0, ρ⟩ fun r => ∀ c : Dev nD,
      r.2.mem ((c.tc : Thread nD τ).loc main_v12) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The numerator as one sum over all rows -/

/-- Entry `h` of the reshaped slice is entry `(h, 0, 0)` of the result array: grid row `h`'s total. -/
theorem picked_apply (c : Dev nD) (h : Fin 2) :
    shapeCast S2 (extractStridedSlice S2x1x1 ![0, 0, 0] (totals m c) slices_S2x8x128_S2x1x1_0_0_0) shapeCasts_S2x1x1_S2 (ix1 h)
      = accAt (tileSum m c) (64 * h.val + 63) := by
  refine (shapeCast_apply _ shapeCasts_S2x1x1_S2 (ix1 h) (ix3 h (0 : Fin 1) (0 : Fin 1)) ?_).trans ?_
  · rw [Shape.rowMajor_val_one, Shape.rowMajor_val_three]
    show (h.val * 1 + 0) * 1 + 0 = h.val
    omega
  · refine (extractStridedSlice_apply _ (totals m c) slices_S2x8x128_S2x1x1_0_0_0 (ix3 h (0 : Fin 1) (0 : Fin 1)) (ix3 h (0 : Fin 8) (0 : Fin 128)) ?_).trans rfl
    intro a
    match a with
    | ⟨0, _⟩ => show h.val = 0 + h.val; omega
    | ⟨1, _⟩ => rfl
    | ⟨2, _⟩ => rfl

/-- The numerator is the zero word plus the sum of every row's term. -/
theorem numer_eq (c : Dev nD) : numer m c = fun _ => zeroF + ∑ i : Fin 131072, rowAt m c i := by
  funext j
  unfold numer
  simp only [Host.reduceAdd, Ideal.hostReduceAdd_def]
  rw [Ideal.hostReduceAdd_total reducesTo_S2_S_d0 (fun b => b.elim0) _ _ j]
  rw [← Equiv.sum_comp (idxEquiv1 (n := 2)).symm, Fin.sum_univ_two]
  show zeroF + (_ + _) = _
  have p0 := picked_apply m c 0
  have p1 := picked_apply m c 1
  simp only [Fin.val_zero, Fin.val_one, Nat.mul_zero, Nat.zero_add, Nat.mul_one] at p0 p1
  refine Eq.trans ?_ (grid_total (tileSum m c) (rowAt m c) fun k => ?_)
  · exact congrArg (zeroF + ·) (congrArg₂ (· + ·) p0 p1)
  · unfold tileSum
    rw [dif_pos (lt_of_lt_of_eq k.isLt N_0.symm)]
    rfl

end Cert.KernelIdeal.Final

end
-- ==== Proof.RefStages.lean ====
/-
  The reference's run, read stage by stage.

  The reference's @main is 71 host operations in a row. Cut at the values later operations share — the log-softmax
  of the logits, the target column with the ignore label replaced by class 0, the gathered log-probability, the
  rows' terms — it is five stretches. Each stretch, started from ANY buffer contents, writes its last buffer at the
  corresponding stage (the `val_…` functions) of what it found in the buffers it reads, and leaves the argument
  buffers (and, for the second stretch, the log-softmax) alone. Joined in order, the 71 operations leave in the
  result buffer the last stage of the arguments' contents, and every execution of @main is the operations run in
  order. Because each shared value is named once per stretch, no stage is ever written out twice.
-/
import proofs.«409307_j28054726377866_2_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-- The log-softmax of the logits: its fifteen operations, ending in `main_v0`. -/
abbrev opsA : List (HloOp τ sig (Elt F)) :=
  [ TRef.nullary (TRef.of (T := ⟨S_, .f32⟩) main_call0_cst) (constant S_ .f32 0xFF800000#32),
    TRef.binary (TRef.of (T := ⟨S131072x1024, .f32⟩) main_arg0) (TRef.of (T := ⟨S_, .f32⟩) main_call0_cst) (TRef.of (T := ⟨S131072, .f32⟩) main_call0_v0) (fun x v => Host.reduce FloatOps.maximumf x v reducesTo_S131072x1024_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x1024, .f32⟩) main_call0_v4) (broadcastInDim S131072x1024 ![0, 1] bcast_S131072x1_S131072x1024_0_1),
    TRef.binary (TRef.of (T := ⟨S131072x1024, .f32⟩) main_arg0) (TRef.of (T := ⟨S131072x1024, .f32⟩) main_call0_v4) (TRef.of (T := ⟨S131072x1024, .f32⟩) main_call0_v5) subf,
    TRef.unary (TRef.of (T := ⟨S131072x1024, .f32⟩) main_call0_v5) (TRef.of (T := ⟨S131072x1024, .f32⟩) main_call0_v6) Host.exp,
    TRef.nullary (TRef.of (T := ⟨S_, .f32⟩) main_call0_cst_1) (constant S_ .f32 0x00000000#32),
    TRef.binary (TRef.of (T := ⟨S131072x1024, .f32⟩) main_call0_v6) (TRef.of (T := ⟨S_, .f32⟩) main_call0_cst_1) (TRef.of (T := ⟨S131072, .f32⟩) main_call0_v7) (fun x v => Host.reduceAdd x v reducesTo_S131072x1024_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x1024, .f32⟩) main_call0_v10) (broadcastInDim S131072x1024 ![0, 1] bcast_S131072x1_S131072x1024_0_1),
    TRef.binary (TRef.of (T := ⟨S131072x1024, .f32⟩) main_call0_v5) (TRef.of (T := ⟨S131072x1024, .f32⟩) main_call0_v10) (TRef.of (T := ⟨S131072x1024, .f32⟩) main_v0) subf ]

/-- The target with the ignore label replaced by class 0, as a column: eight operations, ending in `main_v4`. -/
abbrev opsB : List (HloOp τ sig (Elt F)) :=
  [ nullary main_c (constantI S_ 32 4294967196#32),
    unary main_c main_v1 (broadcastInDim S131072 ![] bcast_S_S131072 : (⟨S_, .i32⟩ : BufTy).Contents (Elt F) → (⟨S131072, .i32⟩ : BufTy).Contents (Elt F)),
    binary main_arg1 main_v1 main_v2 (cmpi .eq : (⟨S131072, .i32⟩ : BufTy).Contents (Elt F) → (⟨S131072, .i32⟩ : BufTy).Contents (Elt F) → (⟨S131072, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S131072, .i32⟩) main_call1_v1) (broadcastInDim S131072 ![] bcast_S_S131072),
    TRef.ternary (TRef.of (T := ⟨S131072, .i1⟩) main_v2) (TRef.of (T := ⟨S131072, .i32⟩) main_call1_v1) (TRef.of (T := ⟨S131072, .i32⟩) main_arg1) (TRef.of (T := ⟨S131072, .i32⟩) main_v3) select,
    unary main_v3 main_v4 (broadcastInDim S131072x1 ![0] bcast_S131072_S131072x1_0 : (⟨S131072, .i32⟩ : BufTy).Contents (Elt F) → (⟨S131072x1, .i32⟩ : BufTy).Contents (Elt F)) ]

/-- The log-probability gathered at that target: twenty-two operations, ending in `main_v5`. -/
abbrev opsC : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S131072x1, .i32⟩) main_call2_v0) (broadcastInDim S131072x1 ![] bcast_S_S131072x1),
    TRef.binary (TRef.of (T := ⟨S131072x1, .i32⟩) main_v4) (TRef.of (T := ⟨S131072x1, .i32⟩) main_call2_v0) (TRef.of (T := ⟨S131072x1, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S131072x1, .i32⟩) main_call2_v2) (broadcastInDim S131072x1 ![] bcast_S_S131072x1),
    TRef.binary (TRef.of (T := ⟨S131072x1, .i32⟩) main_v4) (TRef.of (T := ⟨S131072x1, .i32⟩) main_call2_v2) (TRef.of (T := ⟨S131072x1, .i32⟩) main_call2_v3) addi,
    TRef.ternary (TRef.of (T := ⟨S131072x1, .i1⟩) main_call2_v1) (TRef.of (T := ⟨S131072x1, .i32⟩) main_call2_v3) (TRef.of (T := ⟨S131072x1, .i32⟩) main_v4) (TRef.of (T := ⟨S131072x1, .i32⟩) main_call2_v4) select,
    TRef.reshape (TRef.of (T := ⟨S131072x1, .i32⟩) main_call2_v4) (TRef.of (T := ⟨S131072x1x1, .i32⟩) main_call2_v5) rfl shapeCasts_S131072x1_S131072x1x1,
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S131072x1x1, .i32⟩) main_call2_v6) (broadcastInDim S131072x1x1 ![] bcast_S_S131072x1x1),
    TRef.binary (TRef.of (T := ⟨S131072x1x1, .i32⟩) main_call2_v5) (TRef.of (T := ⟨S131072x1x1, .i32⟩) main_call2_v6) (TRef.of (T := ⟨S131072x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S131072x1x1, .i32⟩) main_call2_v9) (broadcastInDim S131072x1x1 ![0, 1, 2] bcast_S1x1x1_S131072x1x1_0_1_2),
    TRef.binary (TRef.of (T := ⟨S131072x1x1, .i32⟩) main_call2_v5) (TRef.of (T := ⟨S131072x1x1, .i32⟩) main_call2_v9) (TRef.of (T := ⟨S131072x1x1, .i1⟩) main_call2_v10) (cmpi .sle),
    TRef.binary (TRef.of (T := ⟨S131072x1x1, .i1⟩) main_call2_v7) (TRef.of (T := ⟨S131072x1x1, .i1⟩) main_call2_v10) (TRef.of (T := ⟨S131072x1x1, .i1⟩) main_call2_v11) andi,
    TRef.nullary (TRef.of (T := ⟨S_, .i1⟩) main_call2_c_3) (constantI S_ 1 1#1),
    TRef.binary (TRef.of (T := ⟨S131072x1x1, .i1⟩) main_call2_v11) (TRef.of (T := ⟨S_, .i1⟩) main_call2_c_3) (TRef.of (T := ⟨S131072x1, .i1⟩) main_call2_v12) (fun x v => Host.reduce IntOp.andi x v reducesTo_S131072x1x1_S131072x1_d2 h_S_),
    TRef.binary (TRef.of (T := ⟨S131072x1024, .f32⟩) main_v0) (TRef.of (T := ⟨S131072x1x1, .i32⟩) main_call2_v5) (TRef.of (T := ⟨S131072x1, .f32⟩) main_call2_v13) (fun x i => Host.gather gather_S131072x1024_S131072x1x1_S131072x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S131072x1, .f32⟩) main_call2_v14) (broadcastInDim S131072x1 ![] bcast_S_S131072x1),
    TRef.ternary (TRef.of (T := ⟨S131072x1, .i1⟩) main_call2_v12) (TRef.of (T := ⟨S131072x1, .f32⟩) main_call2_v13) (TRef.of (T := ⟨S131072x1, .f32⟩) main_call2_v14) (TRef.of (T := ⟨S131072x1, .f32⟩) main_v5) select ]

/-- Each row's term from its gathered log-probability and its two weights: twelve operations, ending in `main_v15`. -/
abbrev opsD : List (HloOp τ sig (Elt F)) :=
  [ reshape main_v5 main_v6 rfl shapeCasts_S131072x1_S131072,
    unary main_v6 main_v7 (Host.exp : (⟨S131072, .f32⟩ : BufTy).Contents (Elt F) → (⟨S131072, .f32⟩ : BufTy).Contents (Elt F)),
    binary main_v6 main_arg2 main_v8 (mulf : (⟨S131072, .f32⟩ : BufTy).Contents (Elt F) → (⟨S131072, .f32⟩ : BufTy).Contents (Elt F) → (⟨S131072, .f32⟩ : BufTy).Contents (Elt F)),
    nullary main_cst (constant S_ .f32 0x3F800000#32),
    unary main_cst main_v9 (broadcastInDim S131072 ![] bcast_S_S131072 : (⟨S_, .f32⟩ : BufTy).Contents (Elt F) → (⟨S131072, .f32⟩ : BufTy).Contents (Elt F)),
    binary main_v9 main_v7 main_v10 (subf : (⟨S131072, .f32⟩ : BufTy).Contents (Elt F) → (⟨S131072, .f32⟩ : BufTy).Contents (Elt F) → (⟨S131072, .f32⟩ : BufTy).Contents (Elt F)),
    nullary main_cst_1 (constant S_ .f32 0x2EDBE6FF#32),
    unary main_cst_1 main_v11 (broadcastInDim S131072 ![] bcast_S_S131072 : (⟨S_, .f32⟩ : BufTy).Contents (Elt F) → (⟨S131072, .f32⟩ : BufTy).Contents (Elt F)),
    binary main_v10 main_v11 main_v12 (addf : (⟨S131072, .f32⟩ : BufTy).Contents (Elt F) → (⟨S131072, .f32⟩ : BufTy).Contents (Elt F) → (⟨S131072, .f32⟩ : BufTy).Contents (Elt F)),
    unary main_v12 main_v13 (Host.log : (⟨S131072, .f32⟩ : BufTy).Contents (Elt F) → (⟨S131072, .f32⟩ : BufTy).Contents (Elt F)),
    binary main_v13 main_arg3 main_v14 (mulf : (⟨S131072, .f32⟩ : BufTy).Contents (Elt F) → (⟨S131072, .f32⟩ : BufTy).Contents (Elt F) → (⟨S131072, .f32⟩ : BufTy).Contents (Elt F)),
    binary main_v8 main_v14 main_v15 (addf : (⟨S131072, .f32⟩ : BufTy).Contents (Elt F) → (⟨S131072, .f32⟩ : BufTy).Contents (Elt F) → (⟨S131072, .f32⟩ : BufTy).Contents (Elt F)) ]

/-- The count of rows not ignored, the masked sum of the terms, and their quotient: fourteen operations, ending in `main_v23`. -/
abbrev opsE : List (HloOp τ sig (Elt F)) :=
  [ nullary main_c_2 (constantI S_ 32 4294967196#32),
    unary main_c_2 main_v16 (broadcastInDim S131072 ![] bcast_S_S131072 : (⟨S_, .i32⟩ : BufTy).Contents (Elt F) → (⟨S131072, .i32⟩ : BufTy).Contents (Elt F)),
    binary main_arg1 main_v16 main_v17 (cmpi .ne : (⟨S131072, .i32⟩ : BufTy).Contents (Elt F) → (⟨S131072, .i32⟩ : BufTy).Contents (Elt F) → (⟨S131072, .i1⟩ : BufTy).Contents (Elt F)),
    unary main_v17 main_v18 (uitofp .f32 : (⟨S131072, .i1⟩ : BufTy).Contents (Elt F) → (⟨S131072, .f32⟩ : BufTy).Contents (Elt F)),
    nullary main_cst_3 (constant S_ .f32 0x00000000#32),
    binary main_v18 main_cst_3 main_v19 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_4 (constant S_ .f32 0x00000000#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S131072, .f32⟩) main_call3_v1) (broadcastInDim S131072 ![] bcast_S_S131072),
    TRef.ternary (TRef.of (T := ⟨S131072, .i1⟩) main_v17) (TRef.of (T := ⟨S131072, .f32⟩) main_v15) (TRef.of (T := ⟨S131072, .f32⟩) main_call3_v1) (TRef.of (T := ⟨S131072, .f32⟩) main_v20) select,
    nullary main_cst_5 (constant S_ .f32 0x00000000#32),
    binary main_v20 main_cst_5 main_v21 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    unary main_v21 main_v22 (Host.negf : (⟨S_, .f32⟩ : BufTy).Contents (Elt F) → (⟨S_, .f32⟩ : BufTy).Contents (Elt F)),
    binary main_v22 main_v19 main_v23 (Host.divf : (⟨S_, .f32⟩ : BufTy).Contents (Elt F) → (⟨S_, .f32⟩ : BufTy).Contents (Elt F) → (⟨S_, .f32⟩ : BufTy).Contents (Elt F)) ]

/-- The reference's operations are the five stretches in order. -/
theorem ops_cut : (ops : List (HloOp τ sig (Elt F))) = opsA ++ (opsB ++ (opsC ++ (opsD ++ opsE))) := rfl

variable (W : Valuation τ sig (Elt F))

/-! ## What each stretch writes, from what it reads -/

/-- The first stretch writes the log-softmax of the logits it finds. -/
theorem stageA : after opsA W (Proc.devRef .tc main_v0) = val_main_v0 (F := F) (W (Proc.devRef .tc main_arg0)) := by
  after_results_simp
  try dsimp only [TRef.ofBuf, TRef.toBuf]
  repeat rw [cast_eq]
  rfl

/-- The second writes the clamped target column of the targets it finds. -/
theorem stageB : after opsB W (Proc.devRef .tc main_v4) = val_main_v4 (F := F) (W (Proc.devRef .tc main_arg1)) := by
  after_results_simp
  try dsimp only [TRef.ofBuf, TRef.toBuf]
  repeat rw [cast_eq]
  rfl

/-- The third gathers, from the log-softmax and the clamped column it finds, the target's log-probability. -/
theorem stageC (x0 : (⟨S131072x1024, .f32⟩ : BufTy).Contents (Elt F)) (x1 : (⟨S131072, .i32⟩ : BufTy).Contents (Elt F))
    (h0 : W (Proc.devRef .tc main_v0) = val_main_v0 (F := F) x0) (h4 : W (Proc.devRef .tc main_v4) = val_main_v4 (F := F) x1) :
    after opsC W (Proc.devRef .tc main_v5) = val_main_v5 (F := F) x0 x1 := by
  after_results_simp
  try dsimp only [TRef.ofBuf, TRef.toBuf]
  repeat rw [cast_eq]
  rw [h0, h4]
  rfl

/-- The fourth forms each row's term from the gathered column and the two weights it finds. -/
theorem stageD (x0 : (⟨S131072x1024, .f32⟩ : BufTy).Contents (Elt F)) (x1 : (⟨S131072, .i32⟩ : BufTy).Contents (Elt F))
    (x2 x3 : (⟨S131072, .f32⟩ : BufTy).Contents (Elt F))
    (h5 : W (Proc.devRef .tc main_v5) = val_main_v5 (F := F) x0 x1) (h2 : W (Proc.devRef .tc main_arg2) = x2) (h3 : W (Proc.devRef .tc main_arg3) = x3) :
    after opsD W (Proc.devRef .tc main_v15) = val_main_v15 (F := F) x0 x1 x2 x3 := by
  after_results_simp
  try dsimp only [TRef.ofBuf, TRef.toBuf]
  repeat rw [cast_eq]
  rw [h5, h2, h3]
  rfl

/-- The fifth masks and sums the terms it finds, counts the rows not ignored, and divides. -/
theorem stageE (x0 : (⟨S131072x1024, .f32⟩ : BufTy).Contents (Elt F)) (x1 : (⟨S131072, .i32⟩ : BufTy).Contents (Elt F))
    (x2 x3 : (⟨S131072, .f32⟩ : BufTy).Contents (Elt F))
    (h15 : W (Proc.devRef .tc main_v15) = val_main_v15 (F := F) x0 x1 x2 x3) (h1 : W (Proc.devRef .tc main_arg1) = x1) :
    after opsE W (Proc.devRef .tc main_v23) = val_main_v23 (F := F) x0 x1 x2 x3 := by
  after_results_simp
  try dsimp only [TRef.ofBuf, TRef.toBuf]
  repeat rw [cast_eq]
  rw [h15, h1]
  rfl

/-! ## What each stretch leaves alone -/

theorem keepA_main_arg0 : after opsA W (Proc.devRef .tc main_arg0) = W (Proc.devRef .tc main_arg0) := by after_results_simp
theorem keepA_main_arg1 : after opsA W (Proc.devRef .tc main_arg1) = W (Proc.devRef .tc main_arg1) := by after_results_simp
theorem keepA_main_arg2 : after opsA W (Proc.devRef .tc main_arg2) = W (Proc.devRef .tc main_arg2) := by after_results_simp
theorem keepA_main_arg3 : after opsA W (Proc.devRef .tc main_arg3) = W (Proc.devRef .tc main_arg3) := by after_results_simp
theorem keepB_main_arg0 : after opsB W (Proc.devRef .tc main_arg0) = W (Proc.devRef .tc main_arg0) := by after_results_simp
theorem keepB_main_arg1 : after opsB W (Proc.devRef .tc main_arg1) = W (Proc.devRef .tc main_arg1) := by after_results_simp
theorem keepB_main_arg2 : after opsB W (Proc.devRef .tc main_arg2) = W (Proc.devRef .tc main_arg2) := by after_results_simp
theorem keepB_main_arg3 : after opsB W (Proc.devRef .tc main_arg3) = W (Proc.devRef .tc main_arg3) := by after_results_simp
theorem keepC_main_arg0 : after opsC W (Proc.devRef .tc main_arg0) = W (Proc.devRef .tc main_arg0) := by after_results_simp
theorem keepC_main_arg1 : after opsC W (Proc.devRef .tc main_arg1) = W (Proc.devRef .tc main_arg1) := by after_results_simp
theorem keepC_main_arg2 : after opsC W (Proc.devRef .tc main_arg2) = W (Proc.devRef .tc main_arg2) := by after_results_simp
theorem keepC_main_arg3 : after opsC W (Proc.devRef .tc main_arg3) = W (Proc.devRef .tc main_arg3) := by after_results_simp
theorem keepD_main_arg0 : after opsD W (Proc.devRef .tc main_arg0) = W (Proc.devRef .tc main_arg0) := by after_results_simp
theorem keepD_main_arg1 : after opsD W (Proc.devRef .tc main_arg1) = W (Proc.devRef .tc main_arg1) := by after_results_simp
theorem keepD_main_arg2 : after opsD W (Proc.devRef .tc main_arg2) = W (Proc.devRef .tc main_arg2) := by after_results_simp
theorem keepD_main_arg3 : after opsD W (Proc.devRef .tc main_arg3) = W (Proc.devRef .tc main_arg3) := by after_results_simp
theorem keepE_main_arg0 : after opsE W (Proc.devRef .tc main_arg0) = W (Proc.devRef .tc main_arg0) := by after_results_simp
theorem keepE_main_arg1 : after opsE W (Proc.devRef .tc main_arg1) = W (Proc.devRef .tc main_arg1) := by after_results_simp
theorem keepE_main_arg2 : after opsE W (Proc.devRef .tc main_arg2) = W (Proc.devRef .tc main_arg2) := by after_results_simp
theorem keepE_main_arg3 : after opsE W (Proc.devRef .tc main_arg3) = W (Proc.devRef .tc main_arg3) := by after_results_simp
theorem keepB_main_v0 : after opsB W (Proc.devRef .tc main_v0) = W (Proc.devRef .tc main_v0) := by after_results_simp

/-! ## The five stretches in order -/

/-- After all 71 operations the result buffer holds the last stage of the arguments' contents. -/
theorem after_ops_result :
    after (ops (F := F)) W (Proc.devRef .tc main_v23)
      = val_main_v23 (F := F) (W (Proc.devRef .tc main_arg0)) (W (Proc.devRef .tc main_arg1)) (W (Proc.devRef .tc main_arg2)) (W (Proc.devRef .tc main_arg3)) := by
  rw [ops_cut, StableHlo.after_append, StableHlo.after_append, StableHlo.after_append, StableHlo.after_append]
  refine stageE _ _ _ _ _ ?_ ?_
  · refine stageD _ _ _ _ _ ?_ ?_ ?_
    · refine stageC _ _ _ ?_ ?_
      · rw [keepB_main_v0]; exact stageA W
      · rw [stageB, keepA_main_arg1]
    · rw [keepC_main_arg2, keepB_main_arg2, keepA_main_arg2]
    · rw [keepC_main_arg3, keepB_main_arg3, keepA_main_arg3]
  · rw [keepD_main_arg1, keepC_main_arg1, keepB_main_arg1, keepA_main_arg1]

/-- And every argument buffer holds what it held. -/
theorem after_ops_arg0 : after (ops (F := F)) W (Proc.devRef .tc main_arg0) = W (Proc.devRef .tc main_arg0) := by
  rw [ops_cut, StableHlo.after_append, StableHlo.after_append, StableHlo.after_append, StableHlo.after_append,
    keepE_main_arg0, keepD_main_arg0, keepC_main_arg0, keepB_main_arg0, keepA_main_arg0]
theorem after_ops_arg1 : after (ops (F := F)) W (Proc.devRef .tc main_arg1) = W (Proc.devRef .tc main_arg1) := by
  rw [ops_cut, StableHlo.after_append, StableHlo.after_append, StableHlo.after_append, StableHlo.after_append,
    keepE_main_arg1, keepD_main_arg1, keepC_main_arg1, keepB_main_arg1, keepA_main_arg1]
theorem after_ops_arg2 : after (ops (F := F)) W (Proc.devRef .tc main_arg2) = W (Proc.devRef .tc main_arg2) := by
  rw [ops_cut, StableHlo.after_append, StableHlo.after_append, StableHlo.after_append, StableHlo.after_append,
    keepE_main_arg2, keepD_main_arg2, keepC_main_arg2, keepB_main_arg2, keepA_main_arg2]
theorem after_ops_arg3 : after (ops (F := F)) W (Proc.devRef .tc main_arg3) = W (Proc.devRef .tc main_arg3) := by
  rw [ops_cut, StableHlo.after_append, StableHlo.after_append, StableHlo.after_append, StableHlo.after_append,
    keepE_main_arg3, keepD_main_arg3, keepC_main_arg3, keepB_main_arg3, keepA_main_arg3]

/-! ## The run -/

/-- On every device, for any float values, from any memory with zero counters: every weakly fair execution of the
    reference terminates with its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = val_main_v23 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (after_ops_result (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c))⟩)
    (run_seq scopedRefs_eq scopedSems_eq defs main (fun _ => ops) main_eq (fun _ => ops_sub) m ρ)

end Cert.ReferenceIdeal.Stages

end
-- ==== Proof.RefValue.lean ====
/-
  The reference's sum of masked row terms is the specification's, at the ideal values.

  Row by row: the row maximum is the fold of `max` over the row from −∞ (taking the maximum with −∞ once more changes
  nothing), the shifted logits and their log-sum-exp are the specification's, so the log-softmax at (i, j) is
  `sh x j − lse x`. For a target that is a class index the ignore-label replacement, the negative-index wrap and
  the clamp all leave it alone and the in-bounds mask is set, so the gathered value is the log-softmax at the
  target's column and the row's term is the specification's `body`; for the ignore label the row contributes the
  zero word, which is `0`. The total is the zero word plus the sum of the row terms over the rows.
-/
import proofs.«409307_j28054726377866_2_alg».proof.Proof.RefRead
import proofs.«409307_j28054726377866_2_alg».proof.Proof.Spec
import Idealize.ShloMosaic.Lib.ValueIdx
import Idealize.ShloMosaic.Lib.ValueIdxRank1
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.ReadP
open Cert.ReferenceIdeal.Gen

/-- The row of logits of row `i`. -/
abbrev rowOf (x0 : (⟨S131072x1024, .f32⟩ : BufTy).Contents (Elt Ideal)) (i : Fin 131072) : Cert.CeUl.Row :=
  fun j => x0 (ix2 i j)

/-- The reduction's maximum over the columns of row `i` is the fold of `max` over the row from −∞. -/
theorem rowmax_apply (x0 : (⟨S131072x1024, .f32⟩ : BufTy).Contents (Elt Ideal)) (i : Fin 131072) :
    val_main_call0_v0 (F := Ideal) x0 (ix1 i) = Cert.CeUl.rowMax (rowOf x0 i) := by
  unfold val_main_call0_v0
  rw [Host.reduce_eq_fold_single (FloatOps.maximumf (F := Ideal) (φ := .f32)) x0 _ reducesTo_S131072x1024_S131072_d1
    (by decide : S131072x1024.Reduces [1] S131072) h_S_ (ix1 i)]
  unfold Cert.CeUl.rowMax
  refine congrArg (fun f => Finset.fold max Cert.CeUl.negInf f (Finset.univ : Finset (Fin 1024))) ?_
  funext k
  show x0 _ = x0 _
  refine congrArg x0 (funext fun c => Fin.ext ?_)
  match c with
  | ⟨0, _⟩ => rfl
  | ⟨1, _⟩ => rfl

/-- The next stage takes the maximum with −∞ again, which changes nothing: the fold is at least its initial value. -/
theorem rowmax2_apply (x0 : (⟨S131072x1024, .f32⟩ : BufTy).Contents (Elt Ideal)) (i : Fin 131072) :
    val_main_call0_v2 (F := Ideal) x0 (ix1 i) = Cert.CeUl.rowMax (rowOf x0 i) := by
  rw [val_main_call0_v2_apply, val_main_call0_v1_apply, val_main_call0_cst_0_apply, rowmax_apply]
  show max Cert.CeUl.negInf (Cert.CeUl.rowMax (rowOf x0 i)) = _
  refine max_eq_right ?_
  unfold Cert.CeUl.rowMax
  exact (Finset.le_fold_max _).mpr (Or.inl le_rfl)

/-- The shifted logit at row `i`, column `j`. -/
theorem shifted_apply (x0 : (⟨S131072x1024, .f32⟩ : BufTy).Contents (Elt Ideal)) (i : Fin 131072) (j : Fin 1024) :
    val_main_call0_v5 (F := Ideal) x0 (ix2 i j) = Cert.CeUl.sh (rowOf x0 i) j := by
  have e : idx_main_call0_v3 (idx_main_call0_v4 (ix2 i j)) = ix1 i :=
    funext fun a => Fin.ext (by match a with | ⟨0, _⟩ => rfl)
  rw [val_main_call0_v5_apply, val_main_call0_v4_apply, val_main_call0_v3_apply, e, rowmax2_apply]
  rfl

/-- The row's sum of exponentials of the shifted logits, from the zero word. -/
theorem sumexp_apply (x0 : (⟨S131072x1024, .f32⟩ : BufTy).Contents (Elt Ideal)) (i : Fin 131072) :
    val_main_call0_v7 (F := Ideal) x0 (ix1 i)
      = Cert.CeUl.zeroF + ∑ k : Fin 1024, Ideal.exp (Cert.CeUl.sh (rowOf x0 i) k) := by
  rw [val_main_call0_v7_apply, val_main_call0_cst_1_apply]
  refine congrArg (Cert.CeUl.zeroF + ·) (Finset.sum_congr rfl fun k _ => ?_)
  have e : idx_main_call0_v7 (ix1 i) k = ix2 i k :=
    funext fun a => Fin.ext (by match a with | ⟨0, _⟩ => rfl | ⟨1, _⟩ => rfl)
  rw [e, val_main_call0_v6_apply, shifted_apply]
  rfl

/-- The logarithm of that sum is the row's log-sum-exp. -/
theorem lse_apply (x0 : (⟨S131072x1024, .f32⟩ : BufTy).Contents (Elt Ideal)) (i : Fin 131072) :
    val_main_call0_v9 (F := Ideal) x0 (ix2 i (0 : Fin 1)) = Cert.CeUl.lse (rowOf x0 i) := by
  have e : idx_main_call0_v8 (ix2 i (0 : Fin 1)) = ix1 i :=
    funext fun a => Fin.ext (by match a with | ⟨0, _⟩ => rfl)
  rw [val_main_call0_v9_apply, val_main_call0_v8_apply, e, sumexp_apply]
  have hz : Cert.CeUl.zeroF = 0 := Ideal.ofBits_zero_f32
  unfold Cert.CeUl.lse
  rw [hz, zero_add]
  rfl

/-- The log-softmax at row `i`, column `j`. -/
theorem logsoftmax_apply (x0 : (⟨S131072x1024, .f32⟩ : BufTy).Contents (Elt Ideal)) (i : Fin 131072) (j : Fin 1024) :
    val_main_v0 (F := Ideal) x0 (ix2 i j) = Cert.CeUl.sh (rowOf x0 i) j - Cert.CeUl.lse (rowOf x0 i) := by
  have e : idx_main_call0_v10 (ix2 i j) = ix2 i (0 : Fin 1) :=
    funext fun a => Fin.ext (by match a with | ⟨0, _⟩ => rfl | ⟨1, _⟩ => rfl)
  rw [val_main_v0_apply, shifted_apply, val_main_call0_v10_apply, e, lse_apply]
  rfl

/-! ### Words: the comparisons of a class index -/

theorem word_eq_ign_of_ne {tg : BitVec 32} (h : tg ≠ Cert.CeUl.ign) : IntOp.cmpi .eq tg 4294967196#32 = 0#1 := by
  show BitVec.ofBool (tg == 4294967196#32) = 0#1
  rw [beq_eq_false_iff_ne.mpr h]; rfl

theorem word_ne_ign_of_ne {tg : BitVec 32} (h : tg ≠ Cert.CeUl.ign) : IntOp.cmpi .ne tg 4294967196#32 = 1#1 := by
  show BitVec.ofBool (tg != 4294967196#32) = 1#1
  rw [bne_iff_ne.mpr h]; rfl

theorem toInt_of_lt {tg : BitVec 32} (h : tg.toNat < 1024) : tg.toInt = (tg.toNat : Int) := by
  rw [BitVec.toInt_eq_toNat_cond, if_pos (by omega)]

theorem word_slt_zero {tg : BitVec 32} (h : tg.toNat < 1024) : IntOp.cmpi .slt tg 0#32 = 0#1 := by
  show BitVec.ofBool (tg.slt 0#32) = 0#1
  have : tg.slt 0#32 = false := by
    unfold BitVec.slt
    rw [toInt_of_lt h, BitVec.toInt_zero]
    exact decide_eq_false (by omega)
  rw [this]; rfl

theorem word_sge_zero {tg : BitVec 32} (h : tg.toNat < 1024) : IntOp.cmpi .sge tg 0#32 = 1#1 := by
  show BitVec.ofBool ((0#32).sle tg) = 1#1
  have : (0#32).sle tg = true := by
    unfold BitVec.sle
    rw [toInt_of_lt h, BitVec.toInt_zero]
    exact decide_eq_true (by omega)
  rw [this]; rfl

theorem word_sle_max {tg : BitVec 32} (h : tg.toNat < 1024) : IntOp.cmpi .sle tg 1023#32 = 1#1 := by
  show BitVec.ofBool (tg.sle 1023#32) = 1#1
  have h2 : (1023#32 : BitVec 32).toInt = 1023 := by decide
  have : tg.sle 1023#32 = true := by
    unfold BitVec.sle
    rw [toInt_of_lt h, h2]
    exact decide_eq_true (by omega)
  rw [this]; rfl

theorem clamp_of_lt {tg : BitVec 32} (h : tg.toNat < 1024) : min tg.toInt.toNat 1023 = tg.toNat := by
  rw [toInt_of_lt h, Int.toNat_natCast]; omega

/-! ### The index the gather reads -/

/-- The target with the ignore label replaced by class 0, at row `i`. -/
theorem safe_apply (x1 : (⟨S131072, .i32⟩ : BufTy).Contents (Elt Ideal)) (i : Fin 131072) :
    val_main_v4 (F := Ideal) x1 (ix2 i (0 : Fin 1))
      = Scalar.select (IntOp.cmpi .eq (x1 (ix1 i)) 4294967196#32) 0#32 (x1 (ix1 i)) := by
  have e : idx_main_v4 (ix2 i (0 : Fin 1)) = ix1 i :=
    funext fun a => Fin.ext (by match a with | ⟨0, _⟩ => rfl)
  rw [val_main_v4_apply, e, val_main_v3_apply, val_main_v2_apply, val_main_v1_apply, val_main_c_apply,
    val_main_call1_v1_apply, val_main_call1_v0_apply, val_main_c_0_apply]

/-- For a class index the start index of row `i` is the target itself. -/
theorem start_of_class (x1 : (⟨S131072, .i32⟩ : BufTy).Contents (Elt Ideal)) (i : Fin 131072)
    (hne : x1 (ix1 i) ≠ Cert.CeUl.ign) (hlt : (x1 (ix1 i)).toNat < 1024) :
    val_main_call2_v5 (F := Ideal) x1 (ix3 i (0 : Fin 1) (0 : Fin 1)) = x1 (ix1 i) := by
  have e : idx_main_call2_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  rw [val_main_call2_v5_apply, e, val_main_call2_v4_apply, val_main_call2_v1_apply, safe_apply,
    val_main_call2_v0_apply, val_main_call2_c_apply, word_eq_ign_of_ne hne, select_zero, word_slt_zero hlt,
    select_zero]

/-- For a class index the in-bounds mask of row `i` is set. -/
theorem mask_of_class (x1 : (⟨S131072, .i32⟩ : BufTy).Contents (Elt Ideal)) (i : Fin 131072)
    (hne : x1 (ix1 i) ≠ Cert.CeUl.ign) (hlt : (x1 (ix1 i)).toNat < 1024) :
    val_main_call2_v11 (F := Ideal) x1 (ix3 i (0 : Fin 1) (0 : Fin 1)) = 1#1 := by
  rw [val_main_call2_v11_apply, val_main_call2_v7_apply, val_main_call2_v10_apply, start_of_class x1 i hne hlt,
    val_main_call2_v6_apply, val_main_call2_c_2_apply, val_main_call2_v9_apply, val_main_call2_v8_apply,
    val_main_call2_c_1_apply, word_sge_zero hlt, word_sle_max hlt]
  rfl

/-- A fold of `and` from the set bit over a one-point range is its one term. -/
theorem fold_andi_unit (f : Fin 1 → BitVec 1) :
    (Finset.univ : Finset (Fin 1)).fold IntOp.andi 1#1 f = IntOp.andi (f 0) 1#1 := by
  rw [Finset.univ_unique, Finset.fold_singleton]; rfl

/-- The and-reduction over the unit axis keeps the mask. -/
theorem maskred_of_class (x1 : (⟨S131072, .i32⟩ : BufTy).Contents (Elt Ideal)) (i : Fin 131072)
    (hne : x1 (ix1 i) ≠ Cert.CeUl.ign) (hlt : (x1 (ix1 i)).toNat < 1024) :
    val_main_call2_v12 (F := Ideal) x1 (ix2 i (0 : Fin 1)) = 1#1 := by
  unfold val_main_call2_v12
  rw [Host.reduce_eq_fold_single (IntOp.andi (w := 1)) _ _ reducesTo_S131072x1x1_S131072x1_d2
    (by decide : S131072x1x1.Reduces [2] S131072x1) h_S_ (ix2 i (0 : Fin 1))]
  refine (fold_andi_unit _).trans ?_
  have e : Shape.Reduces.lift (by decide : S131072x1x1.Reduces [2] S131072x1) (ix2 i (0 : Fin 1)) (0 : Fin 1)
      = ix3 i (0 : Fin 1) (0 : Fin 1) :=
    funext fun a => Fin.ext (by match a with | ⟨0, _⟩ => rfl | ⟨1, _⟩ => rfl | ⟨2, _⟩ => rfl)
  show IntOp.andi (val_main_call2_v11 (F := Ideal) x1 _) 1#1 = 1#1
  rw [e, mask_of_class x1 i hne hlt]
  rfl

/-! ### The gather read at a row -/

/-- The gather's dimension numbers. -/
abbrev gd : GatherDims S131072x1024 S131072x1x1 S131072x1 := gather_S131072x1024_S131072x1x1_S131072x1_n_1_0_0_1_2_11

/-- On the batching axis the operand index of row `i` is `i`. -/
theorem gd_axis0 (idx : IVec S131072x1x1 32) (i : Fin 131072) :
    gd.start (ix2 i (0 : Fin 1)) idx (0 : Fin 2) + gd.batchCoord (ix2 i (0 : Fin 1)) (0 : Fin 2)
      + gd.offCoord (ix2 i (0 : Fin 1)) (0 : Fin 2) = i.val := by
  have h0 : (0 : Fin 2) ∈ gd.operandBatchingDims := List.mem_singleton.mpr rfl
  rw [GatherDims.start_batching gd _ idx _ h0,
    GatherDims.offCoord_eq_zero gd _ _ (fun h => ((GatherDims.mem_sKept gd _).mp h).2 h0)]
  unfold GatherDims.batchCoord
  rw [dif_pos h0, Nat.add_zero, Nat.zero_add]
  rfl

/-- On the class axis it is the start index of row `i`, read signed and clamped into the row. -/
theorem gd_axis1 (idx : IVec S131072x1x1 32) (i : Fin 131072) :
    gd.start (ix2 i (0 : Fin 1)) idx (1 : Fin 2) + gd.batchCoord (ix2 i (0 : Fin 1)) (1 : Fin 2)
      + gd.offCoord (ix2 i (0 : Fin 1)) (1 : Fin 2)
      = min (idx (ix3 i (0 : Fin 1) (0 : Fin 1))).toInt.toNat 1023 := by
  have h1 : (1 : Fin 2) ∈ gd.startIndexMap := List.mem_singleton.mpr rfl
  have hc : (1 : Fin 2) ∈ gd.collapsedSliceDims := List.mem_singleton.mpr rfl
  rw [GatherDims.batchCoord_eq_zero gd _ _ (fun h => GatherDims.sim_disjoint gd _ h1 h),
    GatherDims.offCoord_eq_zero gd _ _ (fun h => ((GatherDims.mem_sKept gd _).mp h).1 hc)]
  simp only [Nat.add_zero]
  unfold GatherDims.start
  rw [dif_pos h1]
  have hsi : gd.siIdx (ix2 i (0 : Fin 1)) ⟨List.idxOf (1 : Fin 2) gd.startIndexMap,
      List.idxOf_lt_length_iff.2 h1⟩ = ix3 i (0 : Fin 1) (0 : Fin 1) := by
    funext b; refine Fin.ext ?_
    match b with
    | ⟨0, _⟩ => rfl
    | ⟨1, _⟩ => rfl
    | ⟨2, _⟩ => rfl
  rw [hsi]
  rfl

/-- The gather at row `i`: the operand at row `i`, column `k` when the start index, read signed and clamped, is `k`. -/
theorem gather_row (x : (⟨S131072x1024, .f32⟩ : BufTy).Contents (Elt Ideal)) (idx : IVec S131072x1x1 32)
    (i : Fin 131072) (k : Fin 1024) (hk : min (idx (ix3 i (0 : Fin 1) (0 : Fin 1))).toInt.toNat 1023 = k.val) :
    Host.gather gather_S131072x1024_S131072x1x1_S131072x1_n_1_0_0_1_2_11 x idx (ix2 i (0 : Fin 1))
      = x (ix2 i k) := by
  unfold Host.gather
  refine congrArg x (funext fun a => Fin.ext ?_)
  match a with
  | ⟨0, _⟩ => exact gd_axis0 idx i
  | ⟨1, _⟩ => exact (gd_axis1 idx i).trans hk

/-! ### The row's term -/

/-- For a class index the value picked at row `i` is the target's log-probability. -/
theorem picked_of_class (x0 : (⟨S131072x1024, .f32⟩ : BufTy).Contents (Elt Ideal))
    (x1 : (⟨S131072, .i32⟩ : BufTy).Contents (Elt Ideal)) (i : Fin 131072)
    (hne : x1 (ix1 i) ≠ Cert.CeUl.ign) (hlt : (x1 (ix1 i)).toNat < 1024) :
    val_main_v6 (F := Ideal) x0 x1 (ix1 i)
      = Cert.CeUl.shN (rowOf x0 i) (x1 (ix1 i)).toNat - Cert.CeUl.lse (rowOf x0 i) := by
  have e : idx_main_v6 (ix1 i) = ix2 i (0 : Fin 1) :=
    funext fun a => Fin.ext (by
      match a with
      | ⟨0, _⟩ => show i.val / 1 = i.val; omega
      | ⟨1, _⟩ => rfl)
  have hk : min (val_main_call2_v5 (F := Ideal) x1 (ix3 i (0 : Fin 1) (0 : Fin 1))).toInt.toNat 1023
      = (⟨(x1 (ix1 i)).toNat, hlt⟩ : Fin 1024).val := by
    rw [start_of_class x1 i hne hlt]; exact clamp_of_lt hlt
  rw [val_main_v6_apply, e, val_main_v5_apply, maskred_of_class x1 i hne hlt, select_one]
  unfold val_main_call2_v13
  rw [gather_row _ _ i _ hk, logsoftmax_apply]
  unfold Cert.CeUl.shN
  rw [dif_pos hlt]

/-- The row's term from the value picked at row `i`. -/
theorem term_apply (x0 : (⟨S131072x1024, .f32⟩ : BufTy).Contents (Elt Ideal))
    (x1 : (⟨S131072, .i32⟩ : BufTy).Contents (Elt Ideal)) (x2 x3 : (⟨S131072, .f32⟩ : BufTy).Contents (Elt Ideal))
    (i : Fin 131072) :
    val_main_v15 (F := Ideal) x0 x1 x2 x3 (ix1 i)
      = Cert.CeUl.body (val_main_v6 (F := Ideal) x0 x1 (ix1 i)) (x2 (ix1 i)) (x3 (ix1 i)) := by
  rw [val_main_v15_apply, val_main_v8_apply, val_main_v14_apply, val_main_v13_apply, val_main_v12_apply,
    val_main_v10_apply, val_main_v9_apply, val_main_cst_apply, val_main_v7_apply, val_main_v11_apply,
    val_main_cst_1_apply]
  generalize val_main_v6 (F := Ideal) x0 x1 (ix1 i) = lp
  unfold Cert.CeUl.body
  simp only [Ideal.addf_def, Ideal.mulf_def, Ideal.subf_def, Ideal.hostUnary_log_def, Ideal.hostUnary_exp_def,
    Ideal.ofBits_def]

/-- A row whose target is the ignore label or a class index contributes the specification's row term. -/
theorem masked_apply (x0 : (⟨S131072x1024, .f32⟩ : BufTy).Contents (Elt Ideal)) (x1 : (⟨S131072, .i32⟩ : BufTy).Contents (Elt Ideal))
    (x2 x3 : (⟨S131072, .f32⟩ : BufTy).Contents (Elt Ideal)) (i : Fin 131072) (hr : Cert.CeUl.InRange (x1 (ix1 i))) :
    val_main_v20 (F := Ideal) x0 x1 x2 x3 (ix1 i)
      = Cert.CeUl.rowTerm (fun j => x0 (ix2 i j)) (x1 (ix1 i)) (x2 (ix1 i)) (x3 (ix1 i)) := by
  rw [val_main_v20_apply, val_main_v17_apply, val_main_v16_apply, val_main_c_2_apply]
  unfold Cert.CeUl.rowTerm
  by_cases hne : x1 (ix1 i) = Cert.CeUl.ign
  · have hw : IntOp.cmpi .ne (x1 (ix1 i)) 4294967196#32 = 0#1 := by rw [hne]; decide
    rw [if_pos hne, hw, select_zero, val_main_call3_v1_apply, val_main_call3_v0_apply, val_main_cst_4_apply]
    exact Ideal.ofBits_zero_f32
  · have hlt : (x1 (ix1 i)).toNat < 1024 := hr.resolve_left hne
    rw [if_neg hne, word_ne_ign_of_ne hne, select_one, term_apply, picked_of_class x0 x1 i hne hlt]

/-- So the reference's total is the zero word plus the sum of the row terms. -/
theorem num_eq (x0 : (⟨S131072x1024, .f32⟩ : BufTy).Contents (Elt Ideal)) (x1 : (⟨S131072, .i32⟩ : BufTy).Contents (Elt Ideal))
    (x2 x3 : (⟨S131072, .f32⟩ : BufTy).Contents (Elt Ideal)) (hr : ∀ i : Fin 131072, Cert.CeUl.InRange (x1 (ix1 i))) :
    val_main_v21 (F := Ideal) x0 x1 x2 x3
      = fun _ => Cert.CeUl.zeroF + ∑ i : Fin 131072, Cert.CeUl.rowTerm (fun j => x0 (ix2 i j)) (x1 (ix1 i)) (x2 (ix1 i)) (x3 (ix1 i)) := by
  funext j
  rw [val_main_v21_apply, val_main_cst_5_apply]
  refine congrArg (Cert.CeUl.zeroF + ·) ?_
  refine ((Equiv.sum_comp (idxEquiv1 (n := 131072)).symm (val_main_v20 (F := Ideal) x0 x1 x2 x3)).symm).trans ?_
  exact Finset.sum_congr rfl fun i _ => masked_apply x0 x1 x2 x3 i (hr i)

end Cert.ReferenceIdeal.RefValue

end
-- ==== Proof.PreRange.lean ====
/-
  The precondition's last conjunct, read back at one row.

  The precondition ends in the conjunction, over all rows, of
  "target = −100, or 0 ≤ target and target < 1024" (the two orderings signed). When the whole
  precondition is the one-bit word 1, that conjunction is 1, so it holds at every row; at row i it says
  the target word is the ignore label −100 or, read signed, lies in [0, 1024). A 32-bit word whose signed
  value is nonnegative has that value as its unsigned value, so in the second case the word is below 1024
  as a natural number: a class index.
-/
import proofs.«409307_j28054726377866_2_alg».proof.Proof.Spec
import proofs.«409307_j28054726377866_2_alg».proof.Pre_finite_inputs
import Idealize.ShloMosaic.Lib.ValueIdx
import Idealize.ShloMosaic.Lib.ReduceAll
import Idealize.ShloMosaic.Lib.StableHlo.Predicate

namespace Cert.Pre_finite_inputs.Decode

open Idealize.ShloMosaic Idealize.ShloMosaic.ValueIdx

/-- The scalar shape has one index. -/
instance : Subsingleton Cert.Pre_finite_inputs.S_.Idx := ⟨fun a b => funext fun d => d.elim0⟩

/-- A 32-bit word that, read signed, is at least 0 and below 1024 is below 1024 read unsigned. -/
theorem toNat_lt_of_signed_range {tg : BitVec 32} (h0 : (0#32 : BitVec 32).toInt ≤ tg.toInt)
    (h1 : tg.toInt < (1024#32 : BitVec 32).toInt) : tg.toNat < 1024 := by
  have e0 : (0#32 : BitVec 32).toInt = 0 := by decide
  have e1 : (1024#32 : BitVec 32).toInt = 1024 := by decide
  rw [e0] at h0
  rw [e1] at h1
  have hlt : tg.toNat < 2 ^ 32 := tg.isLt
  rw [BitVec.toInt_eq_toNat_cond] at h0 h1
  split at h0 <;> omega

/-- Under the precondition every target is the ignore label or a class index. -/
theorem target_inRange [Cert.Pre_finite_inputs.Facts]
    (a0 : FVec Ideal Cert.Pre_finite_inputs.S131072x1024 .f32) (a1 : IVec Cert.Pre_finite_inputs.S131072 32)
    (a2 a3 : FVec Ideal Cert.Pre_finite_inputs.S131072 .f32)
    (h : Cert.Pre_finite_inputs.fn (F := Ideal) a0 a1 a2 a3 = fun _ => 1#1) (i : Fin 131072) :
    Cert.CeUl.InRange (a1 (ix1 i)) := by
  -- the whole precondition at its one index: a conjunction whose second part is the reduction over all rows
  have h0 := congrFun h ix0
  dsimp only [Cert.Pre_finite_inputs.fn, Cert.Pre_finite_inputs.fn_part1] at h0
  obtain ⟨-, hall⟩ := IntOp.andi_eq_one.1 h0
  -- the reduction by "and" is 1, so its operand is 1 at row i
  have hi := Host.reduce_andi_all _ _ _ _ _ hall (ix1 i)
  -- at row i: equal to −100, or (signed) at least 0 and below 1024
  rcases IntOp.ori_eq_one.1 hi with heq | hrange
  · exact Or.inl (IntOp.cmpi_eq.1 heq)
  · obtain ⟨hge, hlt⟩ := IntOp.andi_eq_one.1 hrange
    exact Or.inr (toNat_lt_of_signed_range (IntOp.cmpi_sge.1 hge) (IntOp.cmpi_slt.1 hlt))

end Cert.Pre_finite_inputs.Decode
-- ==== Proof.lean ====
/-
  The cross-entropy-plus-unlikelihood loss kernel against its jnp reference, over the extended reals.

  Both programs compute, from logits [131072, 1024], integer targets and two per-row label weights,
  `−(∑ᵢ termᵢ) / #{i : targetᵢ ≠ −100}`, where a row's term is `lp · known + log (1 − exp lp + ε) · unknown` of the
  target's log-probability `lp` under the row's softmax, and a row whose target is the ignore label −100 adds nothing.
  The kernel walks a 2 × 64 grid of 1024-row tiles, picks the target's shifted logit by a one-hot compare-and-sum,
  accumulates each tile's sum into a block that stays resident along a grid row, and lets the host add the two grid
  rows' totals; the reference takes `log_softmax`, gathers at the target, masks and sums all rows at once.

  The two agree exactly when every target is the ignore label or a class index in [0, 1024): outside that range the
  reference's gather wraps a negative index or fills with its not-a-number word, while the one-hot sum finds no column.
  The statement's precondition therefore carries that label range beside the finiteness of the float inputs, and it is
  the only thing the proof takes from the precondition: no step needs a float input to be finite, because adding
  `0` and multiplying by `0` or `1` are exact on every extended real, and sums of extended reals regroup freely.

  The pieces: the specification (Spec), the label range read out of the precondition (PreRange), the kernel body's
  arithmetic at an index (TileValue), what one run of the body leaves in the output block (Pieces), the input blocks
  read off the arguments (Blocks), the running sum across the grid (Accum), its regrouping into one sum (Sums), the
  result array, the host tail and the kernel's run (Final); on the reference's side its run stage by stage
  (RefStages, over the operation list and the stage lemmas of RefRun and RefRead) and its sum of masked row terms
  (RefValue). Here: the three frames, the idealization statement, and the two results' equality.
-/
import proofs.«409307_j28054726377866_2_alg».proof.Defs
import proofs.«409307_j28054726377866_2_alg».proof.Proof.Gen.Kernel
import proofs.«409307_j28054726377866_2_alg».proof.Proof.Gen.Kernel.Skeleton
import proofs.«409307_j28054726377866_2_alg».proof.Proof.Gen.Kernel.Launch
import proofs.«409307_j28054726377866_2_alg».proof.Proof.Gen.Kernel.Points
import proofs.«409307_j28054726377866_2_alg».proof.Proof.Gen.Kernel.Frame
import proofs.«409307_j28054726377866_2_alg».proof.Proof.Gen.KernelIdeal
import proofs.«409307_j28054726377866_2_alg».proof.Proof.Gen.KernelIdeal.Skeleton
import proofs.«409307_j28054726377866_2_alg».proof.Proof.Gen.KernelIdeal.Launch
import proofs.«409307_j28054726377866_2_alg».proof.Proof.Gen.KernelIdeal.Points
import proofs.«409307_j28054726377866_2_alg».proof.Proof.Gen.KernelIdeal.Frame
import proofs.«409307_j28054726377866_2_alg».proof.Proof.Gen.ReferenceIdeal
import proofs.«409307_j28054726377866_2_alg».proof.Proof.Gen.Pre_finite_inputs
import proofs.«409307_j28054726377866_2_alg».proof.Proof.Final
import proofs.«409307_j28054726377866_2_alg».proof.Proof.RefStages
import proofs.«409307_j28054726377866_2_alg».proof.Proof.RefValue
import proofs.«409307_j28054726377866_2_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

/-- Under the precondition the reference's last stage of the arguments is the kernel's result: both are the negated
    zero word plus the sum of the rows' terms, over the same count of rows not ignored. -/
theorem results_eq (m : (ℓ : Loc Cert.KernelIdeal.nD Cert.KernelIdeal.τ Cert.KernelIdeal.sig) → Buf (Elt Ideal) ℓ)
    (c : Dev Cert.KernelIdeal.nD)
    (hp : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = fun _ => 1#1) :
    Cert.ReferenceIdeal.ReadP.val_main_v23 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Final.loss m c := by
  have hr : ∀ i : Fin 131072, Cert.CeUl.InRange
      (m ((c.tc : Thread Cert.KernelIdeal.nD Cert.KernelIdeal.τ).loc Cert.KernelIdeal.main_arg1) (ix1 i)) :=
    fun i => Cert.Pre_finite_inputs.Decode.target_inRange _ _ _ _ hp i
  unfold Cert.KernelIdeal.Final.loss Cert.ReferenceIdeal.ReadP.val_main_v23 Cert.ReferenceIdeal.ReadP.val_main_v22
  rw [Cert.ReferenceIdeal.RefValue.num_eq _ _ _ _ hr, Cert.KernelIdeal.Final.numer_eq]
  rfl

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass rewrote nothing. -/
theorem preserves : Cert.preserves_Kernel_KernelIdeal := trivial

/-- From memories agreeing on the arguments both programs end at one value: the kernel at `loss` of its arguments,
    the reference at its last stage of the same arguments, equal under the precondition. -/
theorem algebraic : Cert.algebraic_KernelIdeal_ReferenceIdeal := by
  intro m ρ m' ρ' hpre hagree
  refine ⟨fun c => Cert.KernelIdeal.Final.loss m c, Cert.KernelIdeal.Final.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2]
  exact results_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
